-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x100x128 : Shape := ⟨3, ![8192, 100, 128]⟩
abbrev S100x128 : Shape := ⟨2, ![100, 128]⟩
abbrev S8192x100 : Shape := ⟨2, ![8192, 100]⟩
abbrev S8192 : Shape := ⟨1, ![8192]⟩
abbrev S_ : Shape := ⟨0, ![]⟩

class Facts : Prop where
  bcast_S_S8192x100x128 : S_.BroadcastsInDim S8192x100x128 (![] : Fin 0 → Fin S8192x100x128.rank)
  reducesTo_S8192x100x128_S_d0_1_2 : S8192x100x128.ReducesTo [0, 1, 2] S_
  h_S_ : 0 < S_.numel
  bcast_S_S100x128 : S_.BroadcastsInDim S100x128 (![] : Fin 0 → Fin S100x128.rank)
  reducesTo_S100x128_S_d0_1 : S100x128.ReducesTo [0, 1] S_
  bcast_S_S8192x100 : S_.BroadcastsInDim S8192x100 (![] : Fin 0 → Fin S8192x100.rank)
  reducesTo_S8192x100_S_d0_1 : S8192x100.ReducesTo [0, 1] S_

variable [Facts]

def fn {F : FTy → Type} [FloatOps F] (main_arg0 : FVec F S8192x100x128 .f32) (main_arg1 : FVec F S100x128 .f32) (main_arg2 : FVec F S8192x100 .f32) (main_arg3 : IVec S8192 32) : IVec S_ 1 :=
  let main_v0 : FVec F S8192x100x128 .f32 := Host.absf main_arg0
  let main_cst : FVec F S_ .f32 := constant S_ .f32 0x7F800000#32
  let main_v1 : FVec F S8192x100x128 .f32 := broadcastInDim S8192x100x128 ![] bcast_S_S8192x100x128 main_cst
  let main_v2 : IVec S8192x100x128 1 := cmpf .olt main_v0 main_v1
  let main_c : IVec S_ 1 := constantI S_ 1 1#1
  let main_v3 : IVec S_ 1 := (fun x v => Host.reduce IntOp.andi x v reducesTo_S8192x100x128_S_d0_1_2 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S8192x100 .f32 := Host.absf main_arg2
  let main_cst_2 : FVec F S_ .f32 := constant S_ .f32 0x7F800000#32
  let main_v10 : FVec F S8192x100 .f32 := broadcastInDim S8192x100 ![] bcast_S_S8192x100 main_cst_2
  let main_v11 : IVec S8192x100 1 := cmpf .olt main_v9 main_v10
  let main_c_3 : IVec S_ 1 := constantI S_ 1 1#1
  let main_v12 : IVec S_ 1 := (fun x v => Host.reduce IntOp.andi x v reducesTo_S8192x100_S_d0_1 h_S_) main_v11 main_c_3
  let main_v13 : IVec S_ 1 := andi main_v8 main_v12
  main_v13
-- ==== Kernel.lean ====
abbrev S8192x100x128 : Shape := ⟨3, ![8192, 100, 128]⟩
abbrev S100x128 : Shape := ⟨2, ![100, 128]⟩
abbrev S8192x100 : Shape := ⟨2, ![8192, 100]⟩
abbrev S8192 : Shape := ⟨1, ![8192]⟩
abbrev S8192x1 : Shape := ⟨2, ![8192, 1]⟩
abbrev S1x1 : Shape := ⟨2, ![1, 1]⟩
abbrev S1x100 : Shape := ⟨2, ![1, 100]⟩
abbrev S128x100x128 : Shape := ⟨3, ![128, 100, 128]⟩
abbrev S128x100 : Shape := ⟨2, ![128, 100]⟩
abbrev S128x1 : Shape := ⟨2, ![128, 1]⟩
abbrev S128 : Shape := ⟨1, ![128]⟩
abbrev S1 : Shape := ⟨1, ![1]⟩
abbrev S128x100x1 : Shape := ⟨3, ![128, 100, 1]⟩
abbrev S128x128 : Shape := ⟨2, ![128, 128]⟩
abbrev S100 : Shape := ⟨1, ![100]⟩
abbrev S_ : Shape := ⟨0, ![]⟩
abbrev S1x100x128 : Shape := ⟨3, ![1, 100, 128]⟩
abbrev S100x1x128 : Shape := ⟨3, ![100, 1, 128]⟩
abbrev S100x100x128 : Shape := ⟨3, ![100, 100, 128]⟩
abbrev S100x100 : Shape := ⟨2, ![100, 100]⟩

abbrev nBuf : Space → Nat
  | .hbm => 42
  | .vmem => 10
  | .smem => 0
  | _ => 0

abbrev bufTy : (tb : Table) → Fin (tcTables nBuf tb) → BufTy
  | .hbm, ⟨0, _⟩ => ⟨S8192x100x128, .f32⟩
  | .hbm, ⟨1, _⟩ => ⟨S100x128, .f32⟩
  | .hbm, ⟨2, _⟩ => ⟨S8192x100, .f32⟩
  | .hbm, ⟨3, _⟩ => ⟨S8192, .i32⟩
  | .hbm, ⟨4, _⟩ => ⟨S8192x1, .i32⟩
  | .hbm, ⟨5, _⟩ => ⟨S1x1, .f32⟩
  | .hbm, ⟨6, _⟩ => ⟨S1x100, .f32⟩
  | .hbm, ⟨7, _⟩ => ⟨S1x100, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x100, .f32⟩
  | .hbm, ⟨13, _⟩ => ⟨S1x100, .f32⟩
  | .hbm, ⟨14, _⟩ => ⟨S1x100, .f32⟩
  | .hbm, ⟨15, _⟩ => ⟨S_, .f32⟩
  | .hbm, ⟨16, _⟩ => ⟨S_, .f32⟩
  | .hbm, ⟨17, _⟩ => ⟨S1x100x128, .f32⟩
  | .hbm, ⟨18, _⟩ => ⟨S100x1x128, .f32⟩
  | .hbm, ⟨19, _⟩ => ⟨S100x100x128, .f32⟩
  | .hbm, ⟨20, _⟩ => ⟨S100x100x128, .f32⟩
  | .hbm, ⟨21, _⟩ => ⟨S100x100x128, .f32⟩
  | .hbm, ⟨22, _⟩ => ⟨S100x100x128, .f32⟩
  | .hbm, ⟨23, _⟩ => ⟨S_, .f32⟩
  | .hbm, ⟨24, _⟩ => ⟨S100x100, .f32⟩
  | .hbm, ⟨25, _⟩ => ⟨S_, .f32⟩
  | .hbm, ⟨26, _⟩ => ⟨S100, .f32⟩
  | .hbm, ⟨27, _⟩ => ⟨S_, .f32⟩
  | .hbm, ⟨28, _⟩ => ⟨S100, .f32⟩
  | .hbm, ⟨29, _⟩ => ⟨S100, .f32⟩
  | .hbm, ⟨30, _⟩ => ⟨S_, .f32⟩
  | .hbm, ⟨31, _⟩ => ⟨S100, .f32⟩
  | .hbm, ⟨32, _⟩ => ⟨S100, .f32⟩
  | .hbm, ⟨33, _⟩ => ⟨S_, .f32⟩
  | .hbm, ⟨34, _⟩ => ⟨S100, .f32⟩
  | .hbm, ⟨35, _⟩ => ⟨S100, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S128x100x128, .f32⟩
  | .local _ .vmem, ⟨1, _⟩ => ⟨S128x100x128, .f32⟩
  | .local _ .vmem, ⟨2, _⟩ => ⟨S128x100, .f32⟩
  | .local _ .vmem, ⟨3, _⟩ => ⟨S128x100, .f32⟩
  | .local _ .vmem, ⟨4, _⟩ => ⟨S128x1, .i32⟩
  | .local _ .vmem, ⟨5, _⟩ => ⟨S128x1, .i32⟩
  | .local _ .vmem, ⟨6, _⟩ => ⟨S100x128, .f32⟩
  | .local _ .vmem, ⟨7, _⟩ => ⟨S1x1, .f32⟩
  | .local _ .vmem, ⟨8, _⟩ => ⟨S1x100, .f32⟩
  | .local _ .vmem, ⟨9, _⟩ => ⟨S1x100, .f32⟩
  | _, _ => ⟨S8192x100x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x100x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S8192_S8192x1 : S8192.ShapeCasts S8192x1
  inb_S1x1_S1x1_0_0 : ∀ a, (![0, 0] : Fin 2 → Nat) a + S1x1.size a ≤ S1x1.size a
  h_S1x1 : 0 < S1x1.numel
  inb_S1x100_S1x100_0_0 : ∀ a, (![0, 0] : Fin 2 → Nat) a + S1x100.size a ≤ S1x100.size a
  h_S1x100 : 0 < S1x100.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x100_d1_w32 : S128x100.Iotas .tc 32 [1]
  broadcasts_S128x1_S128x100 : S128x1.Broadcasts S128x100
  natLt_1_32 : 1 < 32
  inb_S128x100_S128x100_0_0 : ∀ a, (![0, 0] : Fin 2 → Nat) a + S128x100.size a ≤ S128x100.size a
  h_S128x100 : 0 < S128x100.numel
  reduces_S128x100_S128 : S128x100.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  inb_S128x100x128_S128x100x128_0_0_0 : ∀ a, (![0, 0, 0] : Fin 3 → Nat) a + S128x100x128.size a ≤ S128x100x128.size a
  h_S128x100x128 : 0 < S128x100x128.numel
  shapeCasts_S128x100_S128x100x1 : S128x100.ShapeCasts S128x100x1
  broadcasts_S128x100x1_S128x100x128 : S128x100x1.Broadcasts S128x100x128
  reduces_S128x100x128_S128x128 : S128x100x128.Reduces [1] S128x128
  inb_S100x128_S100x128_0_0 : ∀ a, (![0, 0] : Fin 2 → Nat) a + S100x128.size a ≤ S100x128.size a
  h_S100x128 : 0 < S100x128.numel
  reduces_S128x128_S128 : S128x128.Reduces [1] S128
  reduces_S128x100_S100 : S128x100.Reduces [0] S100
  shapeCasts_S100_S1x100 : S100.ShapeCasts S1x100
  shapeCasts_S1x100_S1x100 : S1x100.ShapeCasts S1x100
  shapeCasts_S1x1_S_ : S1x1.ShapeCasts S_
  bcast_S_S1x100 : S_.BroadcastsInDim S1x100 (![] : Fin 0 → Fin S1x100.rank)
  reducesTo_S1x100_S_d0_1 : S1x100.ReducesTo [0, 1] S_
  h_S_ : 0 < S_.numel
  bcast_S100x128_S1x100x128_1_2 : S100x128.BroadcastsInDim S1x100x128 (![1, 2] : Fin 2 → Fin S1x100x128.rank)
  bcast_S100x128_S100x1x128_0_2 : S100x128.BroadcastsInDim S100x1x128 (![0, 2] : Fin 2 → Fin S100x1x128.rank)
  bcast_S1x100x128_S100x100x128_0_1_2 : S1x100x128.BroadcastsInDim S100x100x128 (![0, 1, 2] : Fin 3 → Fin S100x100x128.rank)
  bcast_S100x1x128_S100x100x128_0_1_2 : S100x1x128.BroadcastsInDim S100x100x128 (![0, 1, 2] : Fin 3 → Fin S100x100x128.rank)
  reducesTo_S100x100x128_S100x100_d2 : S100x100x128.ReducesTo [2] S100x100
  reducesTo_S100x100_S100_d1 : S100x100.ReducesTo [1] S100
  bcast_S_S100 : S_.BroadcastsInDim S100 (![] : Fin 0 → Fin S100.rank)
  reducesTo_S100_S_d0 : S100.ReducesTo [0] S_
  dot_S128x100_S100x128_S128x128_1_0_0_1_n_n_wf : DotDims.WF S128x100 S100x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x100x128.size a ≤ S8192x100x128.size a
  hwx0_0 : ∀ i : grid0.Coords, EltTy.bits .f32 = 32 ∨ (Rect.block (s := S8192x100x128) S128x100x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x100.size a ≤ S8192x100.size a
  hwx0_1 : ∀ i : grid0.Coords, EltTy.bits .f32 = 32 ∨ (Rect.block (s := S8192x100) S128x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x128.size a ≤ S100x128.size a
  hwx0_3 : ∀ i : grid0.Coords, EltTy.bits .f32 = 32 ∨ (Rect.block (s := S100x128) S100x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)

variable [Facts₀]

def dot_S128x100_S100x128_S128x128_1_0_0_1_n_n : DotDims S128x100 S100x128 S128x128 where
  lhsContracting := [1]
  rhsContracting := [0]
  lhsNonContracting := [0]
  rhsNonContracting := [1]
  lhsBatch := []
  rhsBatch := []
  wf := dot_S128x100_S100x128_S128x128_1_0_0_1_n_n_wf

abbrev win0_0 : Pipeline.Window sig grid0 :=
  Pipeline.Window.ofSpec (Memref.whole main_arg0) S128x100x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S100x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x100.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x100.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x100x128 : Shape := ⟨3, ![8192, 100, 128]⟩
abbrev S100x128 : Shape := ⟨2, ![100, 128]⟩
abbrev S8192x100 : Shape := ⟨2, ![8192, 100]⟩
abbrev S8192 : Shape := ⟨1, ![8192]⟩
abbrev S8192x1 : Shape := ⟨2, ![8192, 1]⟩
abbrev S1x100 : Shape := ⟨2, ![1, 100]⟩
abbrev S_ : Shape := ⟨0, ![]⟩
abbrev S8192x2 : Shape := ⟨2, ![8192, 2]⟩
abbrev S8192x128 : Shape := ⟨2, ![8192, 128]⟩
abbrev S100 : Shape := ⟨1, ![100]⟩
abbrev S1x100x128 : Shape := ⟨3, ![1, 100, 128]⟩
abbrev S100x1x128 : Shape := ⟨3, ![100, 1, 128]⟩
abbrev S100x100x128 : Shape := ⟨3, ![100, 100, 128]⟩
abbrev S100x100 : Shape := ⟨2, ![100, 100]⟩

abbrev nBuf : Space → Nat
  | .hbm => 89
  | .vmem => 0
  | .smem => 0
  | _ => 0

abbrev bufTy : (tb : Table) → Fin (tcTables nBuf tb) → BufTy
  | .hbm, ⟨0, _⟩ => ⟨S8192x100x128, .f32⟩
  | .hbm, ⟨1, _⟩ => ⟨S100x128, .f32⟩
  | .hbm, ⟨2, _⟩ => ⟨S8192x100, .f32⟩
  | .hbm, ⟨3, _⟩ => ⟨S8192, .i32⟩
  | .hbm, ⟨4, _⟩ => ⟨S8192x1, .i32⟩
  | .hbm, ⟨5, _⟩ => ⟨S1x100, .i32⟩
  | .hbm, ⟨6, _⟩ => ⟨S8192x100, .i32⟩
  | .hbm, ⟨7, _⟩ => ⟨S8192x100, .i32⟩
  | .hbm, ⟨8, _⟩ => ⟨S8192x100, .i1⟩
  | .hbm, ⟨9, _⟩ => ⟨S8192x100, .f32⟩
  | .hbm, ⟨10, _⟩ => ⟨S8192x100, .f32⟩
  | .hbm, ⟨11, _⟩ => ⟨S8192x100, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S8192x1, .i32⟩
  | .hbm, ⟨32, _⟩ => ⟨S8192x1, .i32⟩
  | .hbm, ⟨33, _⟩ => ⟨S8192x2, .i32⟩
  | .hbm, ⟨34, _⟩ => ⟨S8192x128, .f32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S100, .f32⟩
  | .hbm, ⟨50, _⟩ => ⟨S8192x1, .i32⟩
  | .hbm, ⟨51, _⟩ => ⟨S100, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S100, .f32⟩
  | .hbm, ⟨56, _⟩ => ⟨S8192x1, .i32⟩
  | .hbm, ⟨57, _⟩ => ⟨S100, .f32⟩
  | .hbm, ⟨58, _⟩ => ⟨S_, .f32⟩
  | .hbm, ⟨59, _⟩ => ⟨S100, .f32⟩
  | .hbm, ⟨60, _⟩ => ⟨S100, .f32⟩
  | .hbm, ⟨61, _⟩ => ⟨S100, .f32⟩
  | .hbm, ⟨62, _⟩ => ⟨S_, .f32⟩
  | .hbm, ⟨63, _⟩ => ⟨S_, .f32⟩
  | .hbm, ⟨64, _⟩ => ⟨S1x100x128, .f32⟩
  | .hbm, ⟨65, _⟩ => ⟨S100x1x128, .f32⟩
  | .hbm, ⟨66, _⟩ => ⟨S100x100x128, .f32⟩
  | .hbm, ⟨67, _⟩ => ⟨S100x100x128, .f32⟩
  | .hbm, ⟨68, _⟩ => ⟨S100x100x128, .f32⟩
  | .hbm, ⟨69, _⟩ => ⟨S100x100x128, .f32⟩
  | .hbm, ⟨70, _⟩ => ⟨S_, .f32⟩
  | .hbm, ⟨71, _⟩ => ⟨S100x100, .f32⟩
  | .hbm, ⟨72, _⟩ => ⟨S_, .f32⟩
  | .hbm, ⟨73, _⟩ => ⟨S100, .f32⟩
  | .hbm, ⟨74, _⟩ => ⟨S_, .f32⟩
  | .hbm, ⟨75, _⟩ => ⟨S100, .f32⟩
  | .hbm, ⟨76, _⟩ => ⟨S100, .f32⟩
  | .hbm, ⟨77, _⟩ => ⟨S_, .f32⟩
  | .hbm, ⟨78, _⟩ => ⟨S100, .f32⟩
  | .hbm, ⟨79, _⟩ => ⟨S100, .f32⟩
  | .hbm, ⟨80, _⟩ => ⟨S_, .f32⟩
  | .hbm, ⟨81, _⟩ => ⟨S100, .f32⟩
  | .hbm, ⟨82, _⟩ => ⟨S100, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S8192x100x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_v50 : Ref sig .tc := ⟨.hbm, 76, rfl⟩
abbrev main_cst_15 : Ref sig .tc := ⟨.hbm, 77, rfl⟩
abbrev main_v51 : Ref sig .tc := ⟨.hbm, 78, rfl⟩
abbrev main_v52 : Ref sig .tc := ⟨.hbm, 79, rfl⟩
abbrev main_cst_16 : Ref sig .tc := ⟨.hbm, 80, rfl⟩
abbrev main_v53 : Ref sig .tc := ⟨.hbm, 81, rfl⟩
abbrev main_v54 : Ref sig .tc := ⟨.hbm, 82, rfl⟩
abbrev main_cst_17 : Ref sig .tc := ⟨.hbm, 83, rfl⟩
abbrev main_v55 : Ref sig .tc := ⟨.hbm, 84, rfl⟩
abbrev main_cst_18 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x100_0_1 : S8192x1.BroadcastsInDim S8192x100 (![0, 1] : Fin 2 → Fin S8192x100.rank)
  bcast_S1x100_S8192x100_0_1 : S1x100.BroadcastsInDim S8192x100 (![0, 1] : Fin 2 → Fin S8192x100.rank)
  reducesTo_S8192x100_S_d0_1 : S8192x100.ReducesTo [0, 1] S_
  h_S_ : 0 < S_.numel
  bcast_S_S8192 : S_.BroadcastsInDim S8192 (![] : Fin 0 → Fin S8192.rank)
  concatenates_S8192x1_S8192x1_S8192x2_d1 : Shape.Concatenates [S8192x1, S8192x1] S8192x2 1
  reducesTo_S8192x128_S8192_d1 : S8192x128.ReducesTo [1] S8192
  bcast_S_S100 : S_.BroadcastsInDim S100 (![] : Fin 0 → Fin S100.rank)
  reducesTo_S100_S_d0 : S100.ReducesTo [0] S_
  bcast_S100x128_S1x100x128_1_2 : S100x128.BroadcastsInDim S1x100x128 (![1, 2] : Fin 2 → Fin S1x100x128.rank)
  bcast_S100x128_S100x1x128_0_2 : S100x128.BroadcastsInDim S100x1x128 (![0, 2] : Fin 2 → Fin S100x1x128.rank)
  bcast_S1x100x128_S100x100x128_0_1_2 : S1x100x128.BroadcastsInDim S100x100x128 (![0, 1, 2] : Fin 3 → Fin S100x100x128.rank)
  bcast_S100x1x128_S100x100x128_0_1_2 : S100x1x128.BroadcastsInDim S100x100x128 (![0, 1, 2] : Fin 3 → Fin S100x100x128.rank)
  reducesTo_S100x100x128_S100x100_d2 : S100x100x128.ReducesTo [2] S100x100
  reducesTo_S100x100_S100_d1 : S100x100.ReducesTo [1] S100
  gather_S8192x100x128_S8192x2_S8192x128_1_01_n_n_01_1_11128_wf : GatherDims.WF S8192x100x128 S8192x2 S8192x128 [1] [0, 1] [] [0, 1] [] 1 ![1, 1, 128]
  gather_S100x128_S8192x1_S8192x128_1_0_n_n_0_1_1128_wf : GatherDims.WF S100x128 S8192x1 S8192x128 [1] [0] [] [0] [] 1 ![1, 128]
  scatter_S100_S8192x1_S8192_n_0_0_1_wf : ScatterDims.WF S100 S8192x1 S8192 [] [0] [0] 1

variable [Facts₀]

def gather_S8192x100x128_S8192x2_S8192x128_1_01_n_n_01_1_11128 : GatherDims S8192x100x128 S8192x2 S8192x128 where
  offsetDims := [1]
  collapsedSliceDims := [0, 1]
  operandBatchingDims := []
  startIndicesBatchingDims := []
  startIndexMap := [0, 1]
  indexVectorDim := 1
  sliceSizes := ![1, 1, 128]
  wf := gather_S8192x100x128_S8192x2_S8192x128_1_01_n_n_01_1_11128_wf
def gather_S100x128_S8192x1_S8192x128_1_0_n_n_0_1_1128 : GatherDims S100x128 S8192x1 S8192x128 where
  offsetDims := [1]
  collapsedSliceDims := [0]
  operandBatchingDims := []
  startIndicesBatchingDims := []
  startIndexMap := [0]
  indexVectorDim := 1
  sliceSizes := ![1, 128]
  wf := gather_S100x128_S8192x1_S8192x128_1_0_n_n_0_1_1128_wf
def scatter_S100_S8192x1_S8192_n_0_0_1 : ScatterDims S100 S8192x1 S8192 where
  updateWindowDims := []
  insertedWindowDims := [0]
  scatterDimsToOperandDims := [0]
  indexVectorDim := 1
  wf := scatter_S100_S8192x1_S8192_n_0_0_1_wf

class Facts : Prop extends Facts₀ where

variable [Facts]
-- ==== Proof.KTail.lean ====
/-
  The host operations after the region, read off the frame run.

  After the region the program divides the classification total by 819200, divides each class sum by 128 times its
  count and adds the 100 quotients, computes the separation term from the table of centres alone, and adds the three.
-/
import proofs.«400139_j39230231282168_2_alg».proof.Proof.Gen.KernelIdeal.Frame
import proofs.«400139_j39230231282168_2_alg».proof.Proof.Gen.ReferenceIdeal.Read
import Idealize.ShloMosaic.Lib.Pipeline.Value
import Idealize.ShloMosaic.Lib.StableHlo.Run
import Idealize.ShloMosaic.Lib.Tactic
import Idealize.ShloMosaic.Lib.ValueIdx

noncomputable section

open scoped BigOperators

namespace Cert.KTail

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The three result arrays and the table of centres after the region. -/
abbrev A4 (c : Dev nD) : Vec Ideal S1x1 .f32 := (dats m 0 c).arrAt 4 cfg0.N
abbrev A5 (c : Dev nD) : Vec Ideal S1x100 .f32 := (dats m 0 c).arrAt 5 cfg0.N
abbrev A6 (c : Dev nD) : Vec Ideal S1x100 .f32 := (dats m 0 c).arrAt 6 cfg0.N
abbrev A3 (c : Dev nD) : Vec Ideal S100x128 .f32 := (dats m 0 c).arrAt 3 cfg0.N

/-- After the region each of the pipeline's arrays reads as what the region left in it. -/
theorem wa3 (c : Dev nD) : Pipeline.withArrays (cfgs 0).spec c (V0 m c) (fun w => (dats m 0 c).arrAt w (cfgs 0).N) (Proc.tc.devRef main_arg1) = A3 m c :=
  Pipeline.withArrays_arr (cfgs 0).spec launch0.win.arr_inj c _ _ 3
theorem wa4 (c : Dev nD) : Pipeline.withArrays (cfgs 0).spec c (V0 m c) (fun w => (dats m 0 c).arrAt w (cfgs 0).N) (Proc.tc.devRef main_v1_0) = A4 m c :=
  Pipeline.withArrays_arr (cfgs 0).spec launch0.win.arr_inj c _ _ 4
theorem wa5 (c : Dev nD) : Pipeline.withArrays (cfgs 0).spec c (V0 m c) (fun w => (dats m 0 c).arrAt w (cfgs 0).N) (Proc.tc.devRef main_v1_1) = A5 m c :=
  Pipeline.withArrays_arr (cfgs 0).spec launch0.win.arr_inj c _ _ 5
theorem wa6 (c : Dev nD) : Pipeline.withArrays (cfgs 0).spec c (V0 m c) (fun w => (dats m 0 c).arrAt w (cfgs 0).N) (Proc.tc.devRef main_v1_2) = A6 m c :=
  Pipeline.withArrays_arr (cfgs 0).spec launch0.win.arr_inj c _ _ 6

theorem tail_v3 (c : Dev nD) :
    Pipeline.afterTail₀ cfgs (dats m) 0 (V0 m) [hostOps1] c main_v3
      = Host.divf (shapeCast S_ (A4 m c) shapeCasts_S1x1_S_) (constant (F := Ideal) S_ .f32 0x49480000#32) := by
  unfold Pipeline.afterTail₀
  show StableHlo.after hostOps1 _ (Proc.devRef .tc main_v3) = _
  after_results
  rw [wa4]
  rfl

theorem tail_v7 (c : Dev nD) :
    Pipeline.afterTail₀ cfgs (dats m) 0 (V0 m) [hostOps1] c main_v7
      = Host.reduceAdd (Host.divf (A5 m c) (mulf (A6 m c) (broadcastInDim S1x100 ![] bcast_S_S1x100 (constant (F := Ideal) S_ .f32 0x43000000#32))))
          (constant (F := Ideal) S_ .f32 0x00000000#32) reducesTo_S1x100_S_d0_1 h_S_ := by
  unfold Pipeline.afterTail₀
  show StableHlo.after hostOps1 _ (Proc.devRef .tc main_v7) = _
  after_results
  rw [wa5, wa6]

theorem tail_v23 (c : Dev nD) :
    Pipeline.afterTail₀ cfgs (dats m) 0 (V0 m) [hostOps1] c main_v23
      = Cert.ReferenceIdeal.Read.val_main_v56 (F := Ideal) (A3 m c) := by
  unfold Pipeline.afterTail₀
  show StableHlo.after hostOps1 _ (Proc.devRef .tc main_v23) = _
  after_results
  rw [wa3]
  rfl

set_option maxHeartbeats 4000000 in
theorem tail_v25 (c : Dev nD) :
    Pipeline.afterTail₀ cfgs (dats m) 0 (V0 m) [hostOps1] c main_v25
      = addf (addf (Host.divf (shapeCast S_ (A4 m c) shapeCasts_S1x1_S_) (constant (F := Ideal) S_ .f32 0x49480000#32))
          (Host.reduceAdd (Host.divf (A5 m c) (mulf (A6 m c) (broadcastInDim S1x100 ![] bcast_S_S1x100 (constant (F := Ideal) S_ .f32 0x43000000#32))))
            (constant (F := Ideal) S_ .f32 0x00000000#32) reducesTo_S1x100_S_d0_1 h_S_))
          (Cert.ReferenceIdeal.Read.val_main_v56 (F := Ideal) (A3 m c)) := by
  unfold Pipeline.afterTail₀
  show StableHlo.after hostOps1 _ (Proc.devRef .tc main_v25) = _
  after_results
  rw [wa3, wa4, wa5, wa6]
  rfl

/-- The four results and the four arguments are no array of the pipeline's staging: they are among the buffers the
    frame run's post reads through the host operations after the region — except the arguments the region stages. -/
theorem mem_v25 : main_v25 ∈ Pipeline.restRefs sig (cfgs 0).spec := Pipeline.mem_restRefs_of main_v25 (by decide) (by decide)
theorem mem_v3 : main_v3 ∈ Pipeline.restRefs sig (cfgs 0).spec := Pipeline.mem_restRefs_of main_v3 (by decide) (by decide)
theorem mem_v7 : main_v7 ∈ Pipeline.restRefs sig (cfgs 0).spec := Pipeline.mem_restRefs_of main_v7 (by decide) (by decide)
theorem mem_v23 : main_v23 ∈ Pipeline.restRefs sig (cfgs 0).spec := Pipeline.mem_restRefs_of main_v23 (by decide) (by decide)

/-- The table of centres is staged and never written: after the region it is as launched. -/
theorem A3_eq (c : Dev nD) : A3 m c = m ((c : Thread nD τ).loc main_arg1) :=
  ((dats m 0 c).arrAt_in 3 rfl _).trans ((A_eq m c 3).trans (V_main_arg1 m c))

end Cert.KTail

end
-- ==== Proof.KPieces.lean ====
/-
  What one grid point leaves in the three accumulators, as the body's named arithmetic.

  At the first point the body stores zeros, reads them back and stores the tile's contribution on top; at every later
  point it reads what the point before left and stores that plus the tile's contribution. Each accumulator is covered
  by one whole-block store (after the reset, at the first point), so what it holds is that store's value.
-/
import proofs.«400139_j39230231282168_2_alg».proof.Proof.Gen.KernelIdeal.Frame
import Idealize.ShloMosaic.Lib.Pipeline.Value
import Idealize.ShloMosaic.Lib.Tactic

noncomputable section

namespace Cert.KPieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point, classification sum: the tile's contribution on top of the zero just stored. -/
theorem out_A_4 (c : Dev nD) (i : grid0.Coords) (arg1 : Memref sig .tc .vmem S128x100x128 .f32) (harg1 : arg1.IsWhole) (arg2 : Memref sig .tc .vmem S128x100 .f32) (harg2 : arg2.IsWhole) (arg3 : Memref sig .tc .vmem S128x1 .i32) (harg3 : arg3.IsWhole) (arg4 : Memref sig .tc .vmem S100x128 .f32) (harg4 : arg4.IsWhole) (arg5 : Memref sig .tc .vmem S1x1 .f32) (harg5 : arg5.IsWhole) (arg6 : Memref sig .tc .vmem S1x100 .f32) (harg6 : arg6.IsWhole) (arg7 : Memref sig .tc .vmem S1x100 .f32) (harg7 : arg7.IsWhole) (hc0 : cond0_0 i) (x0 : Vec F S128x100x128 .f32) (x1 : Vec F S128x100 .f32) (x2 : Vec F S128x1 .i32) (x3 : Vec F S100x128 .f32) :
    out0_A_4 c i arg1 harg1 arg2 harg2 arg3 harg3 arg4 harg4 arg5 harg5 arg6 harg6 arg7 harg7 hc0 x0 x1 x2 x3 = k0_pay7 x2 x1 (k0_pay3 (F := F)) := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, View.ld_unit_zero (S := S128x100x128) hz3, View.ld_unit_zero (S := S128x100) hz2, View.ld_unit_zero (S := S128x1) hz2, View.ld_unit_zero (S := S100x128) hz2, View.ld_unit_zero (S := S1x1) hz2, View.ld_unit_zero (S := S1x100) hz2, View.readCov_unit_zero (S := S1x1) _ hz2]

/-- First point, class sums. -/
theorem out_A_5 (c : Dev nD) (i : grid0.Coords) (arg1 : Memref sig .tc .vmem S128x100x128 .f32) (harg1 : arg1.IsWhole) (arg2 : Memref sig .tc .vmem S128x100 .f32) (harg2 : arg2.IsWhole) (arg3 : Memref sig .tc .vmem S128x1 .i32) (harg3 : arg3.IsWhole) (arg4 : Memref sig .tc .vmem S100x128 .f32) (harg4 : arg4.IsWhole) (arg5 : Memref sig .tc .vmem S1x1 .f32) (harg5 : arg5.IsWhole) (arg6 : Memref sig .tc .vmem S1x100 .f32) (harg6 : arg6.IsWhole) (arg7 : Memref sig .tc .vmem S1x100 .f32) (harg7 : arg7.IsWhole) (hc0 : cond0_0 i) (x0 : Vec F S128x100x128 .f32) (x1 : Vec F S128x100 .f32) (x2 : Vec F S128x1 .i32) (x3 : Vec F S100x128 .f32) :
    out0_A_5 c i arg1 harg1 arg2 harg2 arg3 harg3 arg4 harg4 arg5 harg5 arg6 harg6 arg7 harg7 hc0 x0 x1 x2 x3 = k0_pay1 (k0_pay8 x2 x0 x3) (k0_pay4 (F := F)) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x100) hz2, View.readCov_unit_zero (S := S1x100) _ hz2]
  simp only [View.readAt_eq_ld, harg1.read_unread, harg2.read_unread, harg3.read_unread, harg4.read_unread, harg5.read_unread, harg6.read_unread, harg7.read_unread, View.ld_unit_zero (S := S128x100x128) hz3, View.ld_unit_zero (S := S128x100) hz2, View.ld_unit_zero (S := S128x1) hz2, View.ld_unit_zero (S := S100x128) hz2, View.ld_unit_zero (S := S1x1) hz2, View.ld_unit_zero (S := S1x100) hz2, View.readCov_unit_zero (S := S1x100) _ hz2]

/-- First point, class counts. -/
theorem out_A_6 (c : Dev nD) (i : grid0.Coords) (arg1 : Memref sig .tc .vmem S128x100x128 .f32) (harg1 : arg1.IsWhole) (arg2 : Memref sig .tc .vmem S128x100 .f32) (harg2 : arg2.IsWhole) (arg3 : Memref sig .tc .vmem S128x1 .i32) (harg3 : arg3.IsWhole) (arg4 : Memref sig .tc .vmem S100x128 .f32) (harg4 : arg4.IsWhole) (arg5 : Memref sig .tc .vmem S1x1 .f32) (harg5 : arg5.IsWhole) (arg6 : Memref sig .tc .vmem S1x100 .f32) (harg6 : arg6.IsWhole) (arg7 : Memref sig .tc .vmem S1x100 .f32) (harg7 : arg7.IsWhole) (hc0 : cond0_0 i) (x0 : Vec F S128x100x128 .f32) (x1 : Vec F S128x100 .f32) (x2 : Vec F S128x1 .i32) (x3 : Vec F S100x128 .f32) :
    out0_A_6 c i arg1 harg1 arg2 harg2 arg3 harg3 arg4 harg4 arg5 harg5 arg6 harg6 arg7 harg7 hc0 x0 x1 x2 x3 = k0_pay2 (k0_pay6 x2) (k0_pay5 (F := F)) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x100) hz2, View.readCov_unit_zero (S := S1x100) _ hz2]
  simp only [View.readAt_eq_ld, harg1.read_unread, harg2.read_unread, harg3.read_unread, harg4.read_unread, harg5.read_unread, harg6.read_unread, harg7.read_unread, View.ld_unit_zero (S := S128x100x128) hz3, View.ld_unit_zero (S := S128x100) hz2, View.ld_unit_zero (S := S128x1) hz2, View.ld_unit_zero (S := S100x128) hz2, View.ld_unit_zero (S := S1x1) hz2, View.ld_unit_zero (S := S1x100) hz2, View.readCov_unit_zero (S := S1x100) _ hz2]

/-- A later point, classification sum: the tile's contribution on top of what the point before left. -/
theorem out_B_4 (c : Dev nD) (i : grid0.Coords) (arg1 : Memref sig .tc .vmem S128x100x128 .f32) (harg1 : arg1.IsWhole) (arg2 : Memref sig .tc .vmem S128x100 .f32) (harg2 : arg2.IsWhole) (arg3 : Memref sig .tc .vmem S128x1 .i32) (harg3 : arg3.IsWhole) (arg4 : Memref sig .tc .vmem S100x128 .f32) (harg4 : arg4.IsWhole) (arg5 : Memref sig .tc .vmem S1x1 .f32) (harg5 : arg5.IsWhole) (arg6 : Memref sig .tc .vmem S1x100 .f32) (harg6 : arg6.IsWhole) (arg7 : Memref sig .tc .vmem S1x100 .f32) (harg7 : arg7.IsWhole) (hc0 : ¬cond0_0 i) (x0 : Vec F S128x100x128 .f32) (x1 : Vec F S128x100 .f32) (x2 : Vec F S128x1 .i32) (x3 : Vec F S100x128 .f32) (xo4 : Vec F S1x1 .f32) (xo5 : Vec F S1x100 .f32) (xo6 : Vec F S1x100 .f32) :
    out0_B_4 c i arg1 harg1 arg2 harg2 arg3 harg3 arg4 harg4 arg5 harg5 arg6 harg6 arg7 harg7 hc0 x0 x1 x2 x3 xo4 xo5 xo6 = k0_pay7 x2 x1 xo4 := by
  unfold out0_B_4
  rw [View.read_writes_eq_canon _ _ _ (cover0_B_4 c i arg1 harg1 arg2 harg2 arg3 harg3 arg4 harg4 arg5 harg5 arg6 harg6 arg7 harg7 hc0 x0 x1 x2 x3 xo4 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S128x100x128) hz3, View.ld_unit_zero (S := S128x100) hz2, View.ld_unit_zero (S := S128x1) hz2, View.ld_unit_zero (S := S100x128) hz2, View.ld_unit_zero (S := S1x1) hz2, View.ld_unit_zero (S := S1x100) hz2, View.readCov_unit_zero (S := S1x1) _ hz2]

/-- A later point, class sums. -/
theorem out_B_5 (c : Dev nD) (i : grid0.Coords) (arg1 : Memref sig .tc .vmem S128x100x128 .f32) (harg1 : arg1.IsWhole) (arg2 : Memref sig .tc .vmem S128x100 .f32) (harg2 : arg2.IsWhole) (arg3 : Memref sig .tc .vmem S128x1 .i32) (harg3 : arg3.IsWhole) (arg4 : Memref sig .tc .vmem S100x128 .f32) (harg4 : arg4.IsWhole) (arg5 : Memref sig .tc .vmem S1x1 .f32) (harg5 : arg5.IsWhole) (arg6 : Memref sig .tc .vmem S1x100 .f32) (harg6 : arg6.IsWhole) (arg7 : Memref sig .tc .vmem S1x100 .f32) (harg7 : arg7.IsWhole) (hc0 : ¬cond0_0 i) (x0 : Vec F S128x100x128 .f32) (x1 : Vec F S128x100 .f32) (x2 : Vec F S128x1 .i32) (x3 : Vec F S100x128 .f32) (xo4 : Vec F S1x1 .f32) (xo5 : Vec F S1x100 .f32) (xo6 : Vec F S1x100 .f32) :
    out0_B_5 c i arg1 harg1 arg2 harg2 arg3 harg3 arg4 harg4 arg5 harg5 arg6 harg6 arg7 harg7 hc0 x0 x1 x2 x3 xo4 xo5 xo6 = k0_pay1 (k0_pay8 x2 x0 x3) xo5 := by
  unfold out0_B_5
  rw [View.read_writes_eq_canon _ _ _ (cover0_B_5 c i arg1 harg1 arg2 harg2 arg3 harg3 arg4 harg4 arg5 harg5 arg6 harg6 arg7 harg7 hc0 x0 x1 x2 x3 xo4 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S128x100x128) hz3, View.ld_unit_zero (S := S128x100) hz2, View.ld_unit_zero (S := S128x1) hz2, View.ld_unit_zero (S := S100x128) hz2, View.ld_unit_zero (S := S1x1) hz2, View.ld_unit_zero (S := S1x100) hz2, View.readCov_unit_zero (S := S1x100) _ hz2]

/-- A later point, class counts. -/
theorem out_B_6 (c : Dev nD) (i : grid0.Coords) (arg1 : Memref sig .tc .vmem S128x100x128 .f32) (harg1 : arg1.IsWhole) (arg2 : Memref sig .tc .vmem S128x100 .f32) (harg2 : arg2.IsWhole) (arg3 : Memref sig .tc .vmem S128x1 .i32) (harg3 : arg3.IsWhole) (arg4 : Memref sig .tc .vmem S100x128 .f32) (harg4 : arg4.IsWhole) (arg5 : Memref sig .tc .vmem S1x1 .f32) (harg5 : arg5.IsWhole) (arg6 : Memref sig .tc .vmem S1x100 .f32) (harg6 : arg6.IsWhole) (arg7 : Memref sig .tc .vmem S1x100 .f32) (harg7 : arg7.IsWhole) (hc0 : ¬cond0_0 i) (x0 : Vec F S128x100x128 .f32) (x1 : Vec F S128x100 .f32) (x2 : Vec F S128x1 .i32) (x3 : Vec F S100x128 .f32) (xo4 : Vec F S1x1 .f32) (xo5 : Vec F S1x100 .f32) (xo6 : Vec F S1x100 .f32) :
    out0_B_6 c i arg1 harg1 arg2 harg2 arg3 harg3 arg4 harg4 arg5 harg5 arg6 harg6 arg7 harg7 hc0 x0 x1 x2 x3 xo4 xo5 xo6 = k0_pay2 (k0_pay6 x2) xo6 := by
  unfold out0_B_6
  rw [View.read_writes_eq_canon _ _ _ (cover0_B_6 c i arg1 harg1 arg2 harg2 arg3 harg3 arg4 harg4 arg5 harg5 arg6 harg6 arg7 harg7 hc0 x0 x1 x2 x3 xo4 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S128x100x128) hz3, View.ld_unit_zero (S := S128x100) hz2, View.ld_unit_zero (S := S128x1) hz2, View.ld_unit_zero (S := S100x128) hz2, View.ld_unit_zero (S := S1x1) hz2, View.ld_unit_zero (S := S1x100) hz2, View.readCov_unit_zero (S := S1x100) _ hz2]

end Cert.KPieces

end
-- ==== Proof.LibRows.lean ====
/-
  Gathers and scatter-adds along the leading axis, read at an index, on the extended reals.

  `x[idx]` for a matrix `x : [N, C]` (or a vector `x : [N]`) and a column of indices `idx : [R, 1]` lowers to a gather
  with collapsed_slice_dims [0], start_index_map [0], index_vector_dim 1 (offset_dims [1] and slice sizes [1, C] for the
  matrix; no offset dims and slice sizes [1] for the vector): result row `r` is the operand's row at `idx[r, 0]` read
  as a signed integer and clamped into [0, N − 1]. The matching scatter-add (inserted_window_dims [0],
  scatter_dims_to_operand_dims [0], index_vector_dim 1; update_window_dims [1] for the matrix, none for the vector) adds
  update row `r` onto operand row `idx[r, 0]`, read signed and NOT clamped, and drops it when that is no row.
  Before a gather jnp wraps a negative index once by the axis size: `select (v < 0) (v + n) v`.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- A matrix, a vector and a column of index words, as the host operations see them. -/
abbrev Arr2 (N C : Nat) : Type := (⟨2, ![N, C]⟩ : Shape).Idx → EReal
abbrev Arr1 (N : Nat) : Type := (⟨1, ![N]⟩ : Shape).Idx → EReal
abbrev IdxCol (R : Nat) : Type := (⟨2, ![R, 1]⟩ : Shape).Idx → BitVec 32

/-- A signed index word clamped to a row of an axis of `N` rows. -/
def clampRow {N : Nat} (hN : 0 < N) (w : BitVec 32) : Fin N := ⟨min w.toInt.toNat (N - 1), by omega⟩

/-- jnp's wrap of a negative index, once, by the axis size. -/
def wrapN (n : Nat) (v : BitVec 32) : BitVec 32 := if v.toInt < 0 then v + BitVec.ofNat 32 n else v

/-- The dimension numbers of a row gather; their conditions `wf` are decided on a program's literal shapes. -/
abbrev rowGatherDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of an entry gather from a vector. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The dimension numbers of a row scatter. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The dimension numbers of an entry scatter into a vector. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- THE ROW GATHER READ AT AN INDEX: row `clamp (idx[r, 0])` of the operand. -/
theorem gather_rows_apply {N C R : Nat} (hN : 0 < N)
    (wf : GatherDims.WF ⟨2, ![N, C]⟩ ⟨2, ![R, 1]⟩ ⟨2, ![R, C]⟩ [1] [0] [] [0] [] 1 ![1, C])
    (x : Arr2 N C) (idx : IdxCol R) (r : Fin R) (j : Fin C) :
    Host.gather (rowGatherDims N C R wf) x idx (ix2 r j) = x (ix2 (clampRow hN (idx (ix2 r 0))) j) := by
  unfold Host.gather
  congr 1
  funext a
  refine Fin.ext ?_
  match a with
  | ⟨0, _⟩ =>
    show (rowGatherDims N C R wf).start (ix2 r j) idx 0 + (rowGatherDims N C R wf).batchCoord (ix2 r j) 0
      + (rowGatherDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r j) ⟨List.idxOf (0 : Fin 2) (rowGatherDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowGatherDims N C R wf).start (ix2 r j) idx 1 + (rowGatherDims N C R wf).batchCoord (ix2 r j) 1
      + (rowGatherDims N C R wf).offCoord (ix2 r j) 1 = j.val
    rw [GatherDims.batchCoord_eq_zero _ _ _ List.not_mem_nil]
    have hs : (rowGatherDims N C R wf).start (ix2 r j) idx 1 = 0 := by
      unfold GatherDims.start
      rw [dif_neg (show (1 : Fin 2) ∉ [(0 : Fin 2)] by decide)]
    have hk : (1 : Fin 2) ∈ (rowGatherDims N C R wf).sKept :=
      (GatherDims.mem_sKept _ _).mpr ⟨(show (1 : Fin 2) ∉ [(0 : Fin 2)] by decide), List.not_mem_nil⟩
    have ho : (rowGatherDims N C R wf).offCoord (ix2 r j) 1 = j.val := by
      unfold GatherDims.offCoord
      rw [dif_pos hk]
      rfl
    rw [hs, ho]
    simp only [Nat.add_zero, Nat.zero_add]

/-- THE ENTRY GATHER READ AT AN INDEX: entry `clamp (idx[r, 0])` of the operand. -/
theorem gather_vec_apply {N R : Nat} (hN : 0 < N)
    (wf : GatherDims.WF ⟨1, ![N]⟩ ⟨2, ![R, 1]⟩ ⟨1, ![R]⟩ [] [0] [] [0] [] 1 ![1])
    (x : Arr1 N) (idx : IdxCol R) (r : Fin R) :
    Host.gather (vecGatherDims N R wf) x idx (ix1 r) = x (ix1 (clampRow hN (idx (ix2 r 0)))) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- The start of update `(k, b)`'s window: on the row axis the index of row `k`, read signed; on the column axis zero. -/
theorem start_rows0 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 0 = (idx (ix2 k 0)).toInt := by
  unfold ScatterDims.start
  rw [dif_pos (show (0 : Fin 2) ∈ (rowScatterDims N C R wf).scatterDimsToOperandDims from List.mem_singleton.mpr rfl)]
  have hsi : (rowScatterDims N C R wf).siIdx (ix2 k b) ⟨List.idxOf (0 : Fin 2) (rowScatterDims N C R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

/-- On the column axis the window of an update starts at zero. -/
theorem start_rows1 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 1 = 0 := by
  unfold ScatterDims.start
  rw [dif_neg (show (1 : Fin 2) ∉ [(0 : Fin 2)] by decide)]

/-- The window coordinate of update `(k, b)`: zero on the row axis, `b` on the column axis. -/
theorem window_rows0 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 0 = 0 := by
  unfold ScatterDims.window
  rw [dif_neg (show (0 : Fin 2) ∉ (rowScatterDims N C R wf).sKept by
    simp [ScatterDims.sKept, Shape.kept, List.mem_filter])]

/-- On the column axis the window coordinate of update `(k, b)` is `b`. -/
theorem window_rows1 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 1 = b.val := by
  unfold ScatterDims.window
  rw [dif_pos (show (1 : Fin 2) ∈ (rowScatterDims N C R wf).sKept by
    simp [ScatterDims.sKept, Shape.kept, List.mem_filter, List.mem_finRange])]
  rfl

/-- Update `(k, b)` lands on `(v, j)` exactly when row `k`'s index, read signed, is `v` and `b` is `j`. -/
theorem resultIdx_rows {N C R : Nat} (wf : ScatterDims.WF ⟨2, ![N, C]⟩ ⟨2, ![R, 1]⟩ ⟨2, ![R, C]⟩ [1] [0] [0] 1)
    (idx : IdxCol R) (k : Fin R) (b : Fin C) (v : Fin N) (j : Fin C) :
    ((rowScatterDims N C R wf).resultIdx? (ix2 k b) idx = some (ix2 v j))
      ↔ ((idx (ix2 k 0)).toInt = (v.val : Int) ∧ j = b) := by
  have hv : v.val < N := v.isLt
  have hb : b.val < C := b.isLt
  unfold ScatterDims.resultIdx?
  split
  · rename_i h
    rw [Option.some.injEq]
    constructor
    · intro hf
      have h0 : ((rowScatterDims N C R wf).start (ix2 k b) idx 0
          + ((rowScatterDims N C R wf).window (ix2 k b) 0 : Nat)).toNat = v.val := congrArg (fun f => (f 0).val) hf
      have h1 : ((rowScatterDims N C R wf).start (ix2 k b) idx 1
          + ((rowScatterDims N C R wf).window (ix2 k b) 1 : Nat)).toNat = j.val := congrArg (fun f => (f 1).val) hf
      have g0 := (h 0).1
      simp only [start_rows0, start_rows1, window_rows0, window_rows1] at h0 h1 g0
      refine ⟨?_, Fin.ext ?_⟩
      · omega
      · omega
    · rintro ⟨h0, h1⟩
      have h1' : j.val = b.val := congrArg Fin.val h1
      funext a
      refine Fin.ext ?_
      match a with
      | ⟨0, _⟩ =>
        show ((rowScatterDims N C R wf).start (ix2 k b) idx 0 + ((rowScatterDims N C R wf).window (ix2 k b) 0 : Nat)).toNat = v.val
        rw [start_rows0, window_rows0]
        omega
      | ⟨1, _⟩ =>
        show ((rowScatterDims N C R wf).start (ix2 k b) idx 1 + ((rowScatterDims N C R wf).window (ix2 k b) 1 : Nat)).toNat = j.val
        rw [start_rows1, window_rows1]
        omega
  · rename_i h
    constructor
    · intro hf
      exact absurd hf (by simp)
    · rintro ⟨h0, h1⟩
      have h1' : j.val = b.val := congrArg Fin.val h1
      exfalso
      apply h
      intro a
      match a with
      | ⟨0, _⟩ =>
        show 0 ≤ (rowScatterDims N C R wf).start (ix2 k b) idx 0 + ((rowScatterDims N C R wf).window (ix2 k b) 0 : Nat)
          ∧ (rowScatterDims N C R wf).start (ix2 k b) idx 0 + ((rowScatterDims N C R wf).window (ix2 k b) 0 : Nat) < (N : Int)
        rw [start_rows0, window_rows0]
        omega
      | ⟨1, _⟩ =>
        show 0 ≤ (rowScatterDims N C R wf).start (ix2 k b) idx 1 + ((rowScatterDims N C R wf).window (ix2 k b) 1 : Nat)
          ∧ (rowScatterDims N C R wf).start (ix2 k b) idx 1 + ((rowScatterDims N C R wf).window (ix2 k b) 1 : Nat) < (C : Int)
        rw [start_rows1, window_rows1]
        omega

/-- THE ROW SCATTER-ADD READ AT AN INDEX: the operand's entry plus the sum of the update entries of the same column in
    the rows whose index, read signed, is this row. -/
theorem scatterAdd_rows_apply {N C R : Nat} (wf : ScatterDims.WF ⟨2, ![N, C]⟩ ⟨2, ![R, 1]⟩ ⟨2, ![R, C]⟩ [1] [0] [0] 1)
    (x : Arr2 N C) (idx : IdxCol R) (u : Arr2 R C) (v : Fin N) (j : Fin C) :
    Host.scatterAdd (F := Ideal) (φ := .f32) (rowScatterDims N C R wf) x idx u (ix2 v j)
      = x (ix2 v j) + ∑ e : Fin R, if (idx (ix2 e 0)).toInt = (v.val : Int) then u (ix2 e j) else 0 := by
  show x (ix2 v j) + ∑ q ∈ Finset.univ.filter (fun q => (rowScatterDims N C R wf).resultIdx? q idx = some (ix2 v j)), u q
    = x (ix2 v j) + ∑ e : Fin R, if (idx (ix2 e 0)).toInt = (v.val : Int) then u (ix2 e j) else 0
  congr 1
  rw [Finset.sum_filter, sum_idx2]
  refine Finset.sum_congr rfl fun k _ => ?_
  simp only [resultIdx_rows wf idx k _ v j]
  by_cases h : (idx (ix2 k 0)).toInt = (v.val : Int)
  · simp only [h, true_and, Finset.sum_ite_eq, Finset.mem_univ, if_true]
  · simp only [h, false_and, if_false, Finset.sum_const_zero]

/-- A sum over a vector's indices is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- The start of update `k`'s window in a vector: the index of row `k`, read signed. -/
theorem start_vec {N R : Nat} (wf : ScatterDims.WF ⟨1, ![N]⟩ ⟨2, ![R, 1]⟩ ⟨1, ![R]⟩ [] [0] [0] 1)
    (idx : IdxCol R) (k : Fin R) :
    (vecScatterDims N R wf).start (ix1 k) idx 0 = (idx (ix2 k 0)).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

/-- An entry update has no window: its window coordinate is zero. -/
theorem window_vec {N R : Nat} (wf : ScatterDims.WF ⟨1, ![N]⟩ ⟨2, ![R, 1]⟩ ⟨1, ![R]⟩ [] [0] [0] 1)
    (k : Fin R) : (vecScatterDims N R wf).window (ix1 k) 0 = 0 := by
  unfold ScatterDims.window
  rw [dif_neg (show (0 : Fin 1) ∉ (vecScatterDims N R wf).sKept by
    simp [ScatterDims.sKept, Shape.kept, List.mem_filter])]

/-- Update `k` lands on entry `v` exactly when row `k`'s index, read signed, is `v`. -/
theorem resultIdx_vec {N R : Nat} (wf : ScatterDims.WF ⟨1, ![N]⟩ ⟨2, ![R, 1]⟩ ⟨1, ![R]⟩ [] [0] [0] 1)
    (idx : IdxCol R) (k : Fin R) (v : Fin N) :
    ((vecScatterDims N R wf).resultIdx? (ix1 k) idx = some (ix1 v)) ↔ (idx (ix2 k 0)).toInt = (v.val : Int) := by
  have hv : v.val < N := v.isLt
  unfold ScatterDims.resultIdx?
  split
  · rename_i h
    rw [Option.some.injEq]
    constructor
    · intro hf
      have h0 : ((vecScatterDims N R wf).start (ix1 k) idx 0
          + ((vecScatterDims N R wf).window (ix1 k) 0 : Nat)).toNat = v.val := congrArg (fun f => (f 0).val) hf
      have g0 := (h 0).1
      simp only [start_vec, window_vec] at h0 g0
      omega
    · intro h0
      funext a
      obtain rfl : a = 0 := Subsingleton.elim _ _
      refine Fin.ext ?_
      show ((vecScatterDims N R wf).start (ix1 k) idx 0 + ((vecScatterDims N R wf).window (ix1 k) 0 : Nat)).toNat = v.val
      rw [start_vec, window_vec]
      omega
  · rename_i h
    constructor
    · intro hf
      exact absurd hf (by simp)
    · intro h0
      exfalso
      apply h
      intro a
      obtain rfl : a = 0 := Subsingleton.elim _ _
      show 0 ≤ (vecScatterDims N R wf).start (ix1 k) idx 0 + ((vecScatterDims N R wf).window (ix1 k) 0 : Nat)
        ∧ (vecScatterDims N R wf).start (ix1 k) idx 0 + ((vecScatterDims N R wf).window (ix1 k) 0 : Nat) < (N : Int)
      rw [start_vec, window_vec]
      omega

/-- THE ENTRY SCATTER-ADD READ AT AN INDEX. -/
theorem scatterAdd_vec_apply {N R : Nat} (wf : ScatterDims.WF ⟨1, ![N]⟩ ⟨2, ![R, 1]⟩ ⟨1, ![R]⟩ [] [0] [0] 1)
    (x : Arr1 N) (idx : IdxCol R) (u : Arr1 R) (v : Fin N) :
    Host.scatterAdd (F := Ideal) (φ := .f32) (vecScatterDims N R wf) x idx u (ix1 v)
      = x (ix1 v) + ∑ e : Fin R, if (idx (ix2 e 0)).toInt = (v.val : Int) then u (ix1 e) else 0 := by
  show x (ix1 v) + ∑ q ∈ Finset.univ.filter (fun q => (vecScatterDims N R wf).resultIdx? q idx = some (ix1 v)), u q
    = x (ix1 v) + ∑ e : Fin R, if (idx (ix2 e 0)).toInt = (v.val : Int) then u (ix1 e) else 0
  congr 1
  rw [Finset.sum_filter, sum_idx1]
  refine Finset.sum_congr rfl fun k _ => ?_
  simp only [resultIdx_vec wf idx k v]

/-- jnp's negative-index wrap, one word: `select (v < 0) (v + n) v`. -/
theorem wrap_word (n : Nat) (v : BitVec 32) :
    Scalar.select (IntOp.cmpi .slt v 0#32) (IntOp.addi v (BitVec.ofNat 32 n)) v = wrapN n v := by
  unfold Scalar.select IntOp.cmpi IntOp.addi wrapN
  by_cases h : v.toInt < 0
  · have hs : v.slt 0#32 = true := by simp [BitVec.slt, h]
    simp only [hs, if_pos h]
    rfl
  · have hs : v.slt 0#32 = false := by simp [BitVec.slt, h]
    simp only [hs, if_neg h]
    rfl

/-- A word that, read signed, is a row reads as that row after the wrap and the clamp. -/
theorem clamp_wrap_of_toInt {N : Nat} (hN : 0 < N) (w : BitVec 32) (v : Fin N) (h : w.toInt = (v.val : Int)) :
    clampRow hN (wrapN N w) = v := by
  have hv : v.val < N := v.isLt
  have hw : wrapN N w = w := by
    unfold wrapN
    rw [if_neg (by omega)]
  rw [hw]
  refine Fin.ext ?_
  show min w.toInt.toNat (N - 1) = v.val
  rw [h, Int.toNat_natCast]
  omega

end Cert.LibRows

end
-- ==== Proof.Spec.lean ====
/-
  The mathematics of the two programs over the extended reals, free of either program's text.

  Inputs: activations `z : [8192, 100, 128]`, class centres `w : [100, 128]`, scores `o : [8192, 100]` and labels
  `y : [8192]` (32-bit words, ANY words). `oh v c` is the one-hot entry: one when the word `v` is the class number `c`,
  zero otherwise; a word that is no class number gives an all-zero row.

  * classification: `clsSum = ∑_b ∑_c (o[b,c] − oh y_b c)²`.
  * per-sample distance, as the kernel forms it: `ps b = ∑_d (∑_c oh y_b c · z[b,c,d] − ∑_c oh y_b c · w[c,d])²`;
    class sums `sums c = ∑_b oh y_b c · ps b`; class counts `counts c = ∑_b oh y_b c`.
  * per-sample distance as the reference forms it: `psRef b = ∑_d (z[b, κ y_b, d] − w[κ y_b, d])²` with `κ` the gather's
    reading of a word (a negative word wrapped once by 100, then clamped into 0…99), summed into class `c` over the
    samples whose word, read signed, IS `c` (a scatter-add drops every other sample).
  The two agree (`sums_eq_ref`, `counts_eq_ref`): a sample whose word is the class `c` has a one-hot row selecting
  exactly row `c` (`0 · x = 0` and `1 · x = x` on the extended reals, so no finiteness is needed) and `κ y_b = c`; any
  other sample contributes `0 · ps b = 0` on one side and is dropped on the other — whatever `κ` reads for it.
  The kernel meets the batch in 64 tiles of 128 rows: `row t r = 128 t + r`, and a sum over the batch is the double sum
  over tiles and rows (`sum_rows`).
-/
import Idealize.ShloMosaic.PureOps.Ideal
import Idealize.ShloMosaic.PureOps.Ideal.Laws
import Idealize.ShloMosaic.Lib.ValueIdx
import proofs.«400139_j39230231282168_2_alg».proof.Proof.LibRows

noncomputable section

open scoped BigOperators

namespace Cert.Spec

open Idealize.ShloMosaic Idealize.ShloMosaic.ValueIdx

/-- The one-hot entry of the label word `v` at class `c`. -/
def oh (v : BitVec 32) (c : Fin 100) : EReal := if v = BitVec.ofNat 32 c.val then 1 else 0

/-- A square, as both programs form it: the product of a value with itself. -/
def sqr (x : EReal) : EReal := x * x

abbrev ArrZ : Type := (⟨3, ![8192, 100, 128]⟩ : Shape).Idx → EReal
abbrev ArrW : Type := (⟨2, ![100, 128]⟩ : Shape).Idx → EReal
abbrev ArrO : Type := (⟨2, ![8192, 100]⟩ : Shape).Idx → EReal
abbrev ArrY : Type := (⟨1, ![8192]⟩ : Shape).Idx → BitVec 32
abbrev TileZ : Type := (⟨3, ![128, 100, 128]⟩ : Shape).Idx → EReal
abbrev TileO : Type := (⟨2, ![128, 100]⟩ : Shape).Idx → EReal
abbrev TileY : Type := (⟨2, ![128, 1]⟩ : Shape).Idx → BitVec 32

/-! ## Whole-batch quantities -/

def clsSum (o : ArrO) (y : ArrY) : EReal := ∑ b : Fin 8192, ∑ c : Fin 100, sqr (o (ix2 b c) - oh (y (ix1 b)) c)
def zsel (z : ArrZ) (y : ArrY) (b : Fin 8192) (d : Fin 128) : EReal := ∑ c : Fin 100, oh (y (ix1 b)) c * z (ix3 b c d)
def wsel (w : ArrW) (y : ArrY) (b : Fin 8192) (d : Fin 128) : EReal := ∑ c : Fin 100, oh (y (ix1 b)) c * w (ix2 c d)
def ps (z : ArrZ) (w : ArrW) (y : ArrY) (b : Fin 8192) : EReal := ∑ d : Fin 128, sqr (zsel z y b d - wsel w y b d)
def sums (z : ArrZ) (w : ArrW) (y : ArrY) (c : Fin 100) : EReal := ∑ b : Fin 8192, oh (y (ix1 b)) c * ps z w y b
def counts (y : ArrY) (c : Fin 100) : EReal := ∑ b : Fin 8192, oh (y (ix1 b)) c

/-! ## The reference's reading -/

/-- The gather's reading of a label word: wrapped once by 100 when negative, then clamped into 0 … 99. -/
def kap (v : BitVec 32) : Fin 100 := Cert.LibRows.clampRow (N := 100) (by decide) (Cert.LibRows.wrapN 100 v)

def psRef (z : ArrZ) (w : ArrW) (y : ArrY) (b : Fin 8192) : EReal :=
  ∑ d : Fin 128, sqr (z (ix3 b (kap (y (ix1 b))) d) - w (ix2 (kap (y (ix1 b))) d))
def sumsRef (z : ArrZ) (w : ArrW) (y : ArrY) (c : Fin 100) : EReal :=
  ∑ b : Fin 8192, if (y (ix1 b)).toInt = (c.val : Int) then psRef z w y b else 0
def countsRef (y : ArrY) (c : Fin 100) : EReal :=
  ∑ b : Fin 8192, if (y (ix1 b)).toInt = (c.val : Int) then (1 : EReal) else 0

/-- A word is the class number `c` exactly when, read signed, it is `c`. -/
theorem eq_ofNat_iff (v : BitVec 32) (c : Fin 100) : v = BitVec.ofNat 32 c.val ↔ v.toInt = (c.val : Int) := by
  have hc : c.val < 100 := c.isLt
  -- a class number is below 2^31, so the word of that number reads signed as the number itself
  have hto : (BitVec.ofNat 32 c.val).toInt = (c.val : Int) := by
    rw [BitVec.toInt_eq_toNat_cond, BitVec.toNat_ofNat]
    have h1 : c.val % 2 ^ 32 = c.val := Nat.mod_eq_of_lt (by omega)
    rw [h1, if_pos (by omega)]
  constructor
  · intro h
    rw [h, hto]
  · intro h
    exact BitVec.toInt_inj.mp (h.trans hto.symm)

theorem oh_of_toInt {v : BitVec 32} {c : Fin 100} (h : v.toInt = (c.val : Int)) (c' : Fin 100) :
    oh v c' = if c' = c then 1 else 0 := by
  unfold oh
  by_cases hc : c' = c
  · subst hc
    rw [if_pos ((eq_ofNat_iff v c').mpr h), if_pos rfl]
  · rw [if_neg hc, if_neg]
    intro hv
    have h' : v.toInt = (c'.val : Int) := (eq_ofNat_iff v c').mp hv
    exact hc (Fin.ext (by omega))

theorem oh_of_ne {v : BitVec 32} {c : Fin 100} (h : ¬ v.toInt = (c.val : Int)) : oh v c = 0 := by
  unfold oh
  rw [if_neg]
  intro hv
  exact h ((eq_ofNat_iff v c).mp hv)

theorem sums_eq_ref (z : ArrZ) (w : ArrW) (y : ArrY) (c : Fin 100) : sums z w y c = sumsRef z w y c := by
  unfold sums sumsRef
  refine Finset.sum_congr rfl fun b _ => ?_
  by_cases h : (y (ix1 b)).toInt = (c.val : Int)
  · -- the word is the class c: the one-hot row selects row c of both operands, and the gather reads row c
    rw [if_pos h, oh_of_toInt h c, if_pos rfl, one_mul]
    have hk : kap (y (ix1 b)) = c := Cert.LibRows.clamp_wrap_of_toInt (by decide) _ c h
    have hz : ∀ d : Fin 128, zsel z y b d = z (ix3 b c d) := by
      intro d
      unfold zsel
      simp only [oh_of_toInt h, ite_mul, one_mul, zero_mul, Finset.sum_ite_eq', Finset.mem_univ, if_true]
    have hw : ∀ d : Fin 128, wsel w y b d = w (ix2 c d) := by
      intro d
      unfold wsel
      simp only [oh_of_toInt h, ite_mul, one_mul, zero_mul, Finset.sum_ite_eq', Finset.mem_univ, if_true]
    unfold ps psRef
    refine Finset.sum_congr rfl fun d _ => ?_
    rw [hz, hw, hk]
  · -- any other word: zero times the distance on one side, dropped on the other
    rw [if_neg h, oh_of_ne h, zero_mul]

theorem counts_eq_ref (y : ArrY) (c : Fin 100) : counts y c = countsRef y c := by
  unfold counts countsRef
  refine Finset.sum_congr rfl fun b _ => ?_
  by_cases h : (y (ix1 b)).toInt = (c.val : Int)
  · rw [if_pos h, oh_of_toInt h c, if_pos rfl]
  · rw [if_neg h, oh_of_ne h]

/-! ## One tile of 128 rows -/

def tCls (ob : TileO) (yb : TileY) : EReal := ∑ r : Fin 128, ∑ c : Fin 100, sqr (ob (ix2 r c) - oh (yb (ix2 r 0)) c)
def tPs (zb : TileZ) (wb : ArrW) (yb : TileY) (r : Fin 128) : EReal :=
  ∑ d : Fin 128, sqr ((∑ c : Fin 100, oh (yb (ix2 r 0)) c * zb (ix3 r c d)) - ∑ c : Fin 100, oh (yb (ix2 r 0)) c * wb (ix2 c d))
def tSums (zb : TileZ) (wb : ArrW) (yb : TileY) (c : Fin 100) : EReal := ∑ r : Fin 128, oh (yb (ix2 r 0)) c * tPs zb wb yb r
def tCounts (yb : TileY) (c : Fin 100) : EReal := ∑ r : Fin 128, oh (yb (ix2 r 0)) c

/-- Row `r` of tile `t` is row `128 t + r` of the batch. -/
def row (t : Fin 64) (r : Fin 128) : Fin 8192 := ⟨128 * t.val + r.val, by have := t.isLt; have := r.isLt; omega⟩

/-- A sum over the batch is the sum over the tiles of the sums over their rows. -/
theorem sum_rows {M : Type*} [AddCommMonoid M] (f : Fin 8192 → M) : ∑ b : Fin 8192, f b = ∑ t : Fin 64, ∑ r : Fin 128, f (row t r) := by
  -- the pairs (tile, row) number the batch: (t, r) ↦ r + 128 t
  have hrow : ∀ (t : Fin 64) (r : Fin 128), (finProdFinEquiv : Fin 64 × Fin 128 ≃ Fin (64 * 128)) (t, r) = row t r := by
    intro t r
    refine Fin.ext ?_
    show r.val + 128 * t.val = 128 * t.val + r.val
    omega
  calc ∑ b : Fin 8192, f b
      = ∑ x : Fin 64 × Fin 128, f ((finProdFinEquiv : Fin 64 × Fin 128 ≃ Fin (64 * 128)) x) :=
        (Equiv.sum_comp (finProdFinEquiv : Fin 64 × Fin 128 ≃ Fin (64 * 128)) f).symm
    _ = ∑ t : Fin 64, ∑ r : Fin 128, f ((finProdFinEquiv : Fin 64 × Fin 128 ≃ Fin (64 * 128)) (t, r)) :=
        Fintype.sum_prod_type _
    _ = ∑ t : Fin 64, ∑ r : Fin 128, f (row t r) :=
        Finset.sum_congr rfl fun t _ => Finset.sum_congr rfl fun r _ => by rw [hrow t r]

theorem clsSum_tiles (o : ArrO) (y : ArrY) (ob : Fin 64 → TileO) (yb : Fin 64 → TileY)
    (hob : ∀ t r c, ob t (ix2 r c) = o (ix2 (row t r) c)) (hyb : ∀ t r, yb t (ix2 r 0) = y (ix1 (row t r))) :
    ∑ t : Fin 64, tCls (ob t) (yb t) = clsSum o y := by
  unfold tCls clsSum
  simp only [hob, hyb]
  exact (sum_rows (fun b : Fin 8192 => ∑ c : Fin 100, sqr (o (ix2 b c) - oh (y (ix1 b)) c))).symm

theorem sums_tiles (z : ArrZ) (w : ArrW) (y : ArrY) (zb : Fin 64 → TileZ) (wb : Fin 64 → ArrW) (yb : Fin 64 → TileY)
    (hzb : ∀ t r c d, zb t (ix3 r c d) = z (ix3 (row t r) c d)) (hwb : ∀ t c d, wb t (ix2 c d) = w (ix2 c d))
    (hyb : ∀ t r, yb t (ix2 r 0) = y (ix1 (row t r))) (c : Fin 100) :
    ∑ t : Fin 64, tSums (zb t) (wb t) (yb t) c = sums z w y c := by
  unfold tSums tPs sums ps zsel wsel
  simp only [hzb, hwb, hyb]
  exact (sum_rows (fun b : Fin 8192 => oh (y (ix1 b)) c * ∑ d : Fin 128,
    sqr ((∑ c : Fin 100, oh (y (ix1 b)) c * z (ix3 b c d)) - ∑ c : Fin 100, oh (y (ix1 b)) c * w (ix2 c d)))).symm

theorem counts_tiles (y : ArrY) (yb : Fin 64 → TileY) (hyb : ∀ t r, yb t (ix2 r 0) = y (ix1 (row t r))) (c : Fin 100) :
    ∑ t : Fin 64, tCounts (yb t) c = counts y c := by
  unfold tCounts counts
  simp only [hyb]
  exact (sum_rows (fun b : Fin 8192 => oh (y (ix1 b)) c)).symm

end Cert.Spec

end
-- ==== Proof.KPay.lean ====
/-
  The kernel body's arithmetic read at an index, on the extended reals.

  One grid point sees 128 rows: labels `v3 : [128, 1]`, scores `v10 : [128, 100]`, activations `v21 : [128, 100, 128]` and
  the whole table of centres `v26 : [100, 128]`. The one-hot block compares a lane counter with the row's label; the row
  sums, the per-sample squared distance (a lane-weighted sum against a matrix product into a zero accumulator — both
  plain sums over the 100 classes here) and the class sums are then finite sums of products.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«400139_j39230231282168_2_alg».proof.Proof.Gen.KernelIdeal.Skeleton
import proofs.«400139_j39230231282168_2_alg».proof.Proof.Spec

noncomputable section

open scoped BigOperators

namespace Cert.KPay

open Idealize.ShloMosaic Idealize.ShloMosaic.ValueIdx Cert.KernelIdeal Cert.KernelIdeal.Gen Cert.Spec

/-! The layout operations read at an index -/

variable {α : Type}

/-- A vector cast to one column reads, at row `i`, the vector at `i`. -/
private theorem cast_col {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A matrix cast to a stack of one-entry rows reads, at `(i, j, 0)`, the matrix at `(i, j)`. -/
private theorem cast_lane {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- One column broadcast over many reads, at `(i, c)`, the column at `i`. -/
private theorem bcast_col {n m : ℕ} (x : (⟨2, ![n, 1]⟩ : Shape).Idx → α) (h : (⟨2, ![n, 1]⟩ : Shape).Broadcasts ⟨2, ![n, m]⟩)
    (i : Fin n) (c : Fin m) : broadcastTo ⟨2, ![n, m]⟩ x h (ix2 i c) = x (ix2 i (0 : Fin 1)) := by
  refine broadcastTo_apply x h (ix2 i c) (ix2 i (0 : Fin 1)) fun ax => ?_
  match ax with
  | ⟨0, _⟩ =>
    show i.val = if n = 1 then 0 else i.val
    split
    · have := i.isLt; omega
    · rfl
  | ⟨1, _⟩ => rfl

/-- A stack of one-entry rows broadcast along the rows reads, at `(i, j, d)`, the entry at `(i, j)`. -/
private theorem bcast_lane {a b m : ℕ} (x : (⟨3, ![a, b, 1]⟩ : Shape).Idx → α)
    (h : (⟨3, ![a, b, 1]⟩ : Shape).Broadcasts ⟨3, ![a, b, m]⟩) (i : Fin a) (j : Fin b) (d : Fin m) :
    broadcastTo ⟨3, ![a, b, m]⟩ x h (ix3 i j d) = x (ix3 i j (0 : Fin 1)) := by
  refine broadcastTo_apply x h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The lane counter over axis 1 reads, at `(r, c)`, the word of `c`. -/
private theorem iota_lane {n m : ℕ} (h : (⟨2, ![n, m]⟩ : Shape).Iotas .tc 32 [1]) (r : Fin n) (c : Fin m) :
    iota .tc ⟨2, ![n, m]⟩ 32 [1] h (ix2 r c) = BitVec.ofNat 32 c.val := by
  show BitVec.ofNat 32 (0 * m + c.val) = _
  rw [Nat.zero_mul, Nat.zero_add]

/-- The comparison bit of two words, widened and converted: one when the words agree, zero otherwise. -/
private theorem onehot_word (a b : BitVec 32) :
    ((((BitVec.ofBool (a == b)).setWidth 32).toInt : ℝ) : EReal) = if b = a then 1 else 0 := by
  by_cases h : b = a
  · subst h
    rw [if_pos rfl, beq_self_eq_true]
    show (((1#32 : BitVec 32).toInt : ℝ) : EReal) = 1
    norm_num
  · have hne : (a == b) = false := by
      rw [beq_eq_false_iff_ne]; exact fun e => h e.symm
    rw [if_neg h, hne]
    show (((0#32 : BitVec 32).toInt : ℝ) : EReal) = 0
    norm_num

/-- The one-hot block: entry `(r, c)` is one exactly when row `r`'s label word is the class number `c`. -/
theorem pay6_apply (v3 : Vec Ideal S128x1 .i32) (r : Fin 128) (c : Fin 100) :
    k0_pay6 (F := Ideal) v3 (ix2 r c) = oh (v3 (ix2 r 0)) c := by
  have h5 := iota_lane iota_S128x100_d1_w32 r c
  have h6 : broadcastTo S128x100 (shapeCast S128x1 v3 shapeCasts_S128x1_S128x1) broadcasts_S128x1_S128x100 (ix2 r c)
      = v3 (ix2 r (0 : Fin 1)) := by
    rw [shapeCast_self]; exact bcast_col v3 _ r c
  show ((((BitVec.ofBool (iota .tc S128x100 32 [1] iota_S128x100_d1_w32 (ix2 r c)
      == broadcastTo S128x100 (shapeCast S128x1 v3 shapeCasts_S128x1_S128x1) broadcasts_S128x1_S128x100 (ix2 r c))).setWidth 32).toInt : ℝ) : EReal) = _
  rw [h5, h6]
  exact onehot_word _ _

/-- The running class sums: what was there plus this tile's. -/
theorem pay1_apply (v35 : FVec Ideal S1x100 .f32) (v38 : Vec Ideal S1x100 .f32) (c : Fin 100) :
    k0_pay1 (F := Ideal) v35 v38 (ix2 (0 : Fin 1) c) = v38 (ix2 (0 : Fin 1) c) + v35 (ix2 (0 : Fin 1) c) := by
  unfold k0_pay1
  rw [shapeCast_self]
  rfl

/-- The three resets store zeros. -/
theorem pay3_apply : (k0_pay3 (F := Ideal)) (ix2 (0 : Fin 1) (0 : Fin 1)) = 0 := by
  show Ideal.ofBits .f32 0x00000000#32 = 0
  exact Ideal.ofBits_zero_f32
theorem pay4_apply (c : Fin 100) : (k0_pay4 (F := Ideal)) (ix2 (0 : Fin 1) c) = 0 := by
  show Ideal.ofBits .f32 0x00000000#32 = 0
  exact Ideal.ofBits_zero_f32
theorem pay5_apply (c : Fin 100) : (k0_pay5 (F := Ideal)) (ix2 (0 : Fin 1) c) = 0 := by
  show Ideal.ofBits .f32 0x00000000#32 = 0
  exact Ideal.ofBits_zero_f32

/-! The sums -/

/-- A sum over the rows of a matrix, read at column `c`. -/
private theorem sum_axis0 {n m : ℕ} (src : FVec Ideal ⟨2, ![n, m]⟩ .f32) (h : (⟨2, ![n, m]⟩ : Shape).Reduces [0] ⟨1, ![m]⟩)
    (hφ : FKind.Formats .f32) (hacc : (0x00000000#32 : BitVec 32) = 0x00000000#32) (c : Fin m) :
    multiReduction .add [0] ⟨1, ![m]⟩ src 0x00000000#32 h hφ hacc (ix1 c) = ∑ r : Fin n, src (ix2 r c) := by
  refine (Ideal.multiReduction_add_single src 0x00000000#32 h hφ hacc (ix1 c)).trans ?_
  show (∑ r : Fin n, src (h.lift (ix1 c) r)) = _
  refine Finset.sum_congr rfl fun r _ => congrArg src ?_
  funext ax; apply Fin.ext
  match ax with
  | ⟨0, _⟩ => rfl
  | ⟨1, _⟩ => rfl

/-- A sum over the columns of a matrix, read at row `r`. -/
private theorem sum_axis1 {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin m, src (ix2 r c) := by
  refine (Ideal.multiReduction_add_single src 0x00000000#32 h hφ hacc (ix1 r)).trans ?_
  show (∑ c : Fin m, src (h.lift (ix1 r) c)) = _
  refine Finset.sum_congr rfl fun c _ => congrArg src ?_
  funext ax; apply Fin.ext
  match ax with
  | ⟨0, _⟩ => rfl
  | ⟨1, _⟩ => rfl

/-- A sum over the middle axis of a rank-3 array, read at `(i, k)`. -/
private theorem sum_mid {a b d : ℕ} (src : FVec Ideal ⟨3, ![a, b, d]⟩ .f32) (h : (⟨3, ![a, b, d]⟩ : Shape).Reduces [1] ⟨2, ![a, d]⟩)
    (hφ : FKind.Formats .f32) (hacc : (0x00000000#32 : BitVec 32) = 0x00000000#32) (i : Fin a) (k : Fin d) :
    multiReduction .add [1] ⟨2, ![a, d]⟩ src 0x00000000#32 h hφ hacc (ix2 i k) = ∑ j : Fin b, src (ix3 i j k) := by
  refine (Ideal.multiReduction_add_single src 0x00000000#32 h hφ hacc (ix2 i k)).trans ?_
  show (∑ j : Fin b, src (h.lift (ix2 i k) j)) = _
  refine Finset.sum_congr rfl fun j _ => congrArg src ?_
  funext ax; apply Fin.ext
  match ax with
  | ⟨0, _⟩ => rfl
  | ⟨1, _⟩ => rfl
  | ⟨2, _⟩ => rfl

/-! The matrix product into a zero accumulator -/

/-- The left operand is read at the result's row … -/
private theorem lhs_row (i : S128x128.Idx) (q : dot_S128x100_S100x128_S128x128_1_0_0_1_n_n.contr.Idx) :
    (dot_S128x100_S100x128_S128x128_1_0_0_1_n_n.lhsIdx i q 0).val = (i 0).val := by
  unfold DotDims.lhsIdx
  rw [dif_neg (show ¬(0 : Fin S128x100.rank) ∈ dot_S128x100_S100x128_S128x128_1_0_0_1_n_n.lhsBatch by decide),
    dif_pos (show (0 : Fin S128x100.rank) ∈ dot_S128x100_S100x128_S128x128_1_0_0_1_n_n.lhsNonContracting by decide)]
  rfl

/-- … and at the contraction's coordinate; -/
private theorem lhs_contr (i : S128x128.Idx) (q : dot_S128x100_S100x128_S128x128_1_0_0_1_n_n.contr.Idx) :
    (dot_S128x100_S100x128_S128x128_1_0_0_1_n_n.lhsIdx i q 1).val = (q ⟨0, by decide⟩).val :=
  dot_S128x100_S100x128_S128x128_1_0_0_1_n_n.lhsIdx_val_of_single rfl i q

/-- the right operand at the contraction's coordinate … -/
private theorem rhs_contr (i : S128x128.Idx) (q : dot_S128x100_S100x128_S128x128_1_0_0_1_n_n.contr.Idx) :
    (dot_S128x100_S100x128_S128x128_1_0_0_1_n_n.rhsIdx i q 0).val = (q ⟨0, by decide⟩).val :=
  dot_S128x100_S100x128_S128x128_1_0_0_1_n_n.rhsIdx_val_of_single rfl i q

/-- … and at the result's column. -/
private theorem rhs_col (i : S128x128.Idx) (q : dot_S128x100_S100x128_S128x128_1_0_0_1_n_n.contr.Idx) :
    (dot_S128x100_S100x128_S128x128_1_0_0_1_n_n.rhsIdx i q 1).val = (i 1).val := by
  unfold DotDims.rhsIdx
  rw [dif_neg (show ¬(1 : Fin S100x128.rank) ∈ dot_S128x100_S100x128_S128x128_1_0_0_1_n_n.rhsBatch by decide),
    dif_pos (show (1 : Fin S100x128.rank) ∈ dot_S128x100_S100x128_S128x128_1_0_0_1_n_n.rhsNonContracting by decide)]
  rfl

/-- The matrix product into a zero accumulator, read at `(r, d)`: the sum over the 100 classes of the products. -/
private theorem matmul_zero_apply (A : FVec Ideal S128x100 .f32) (B : FVec Ideal S100x128 .f32) (r d : Fin 128) :
    matmul (F := Ideal) dot_S128x100_S100x128_S128x128_1_0_0_1_n_n (some .fp32) A B
        (constant (F := Ideal) S128x128 .f32 0x00000000#32) (ix2 r d)
      = ∑ c : Fin 100, A (ix2 r c) * B (ix2 c d) := by
  show FloatOps.matmul dot_S128x100_S100x128_S128x128_1_0_0_1_n_n (some .fp32) A B
    (constant (F := Ideal) S128x128 .f32 0x00000000#32) (ix2 r d) = _
  rw [Ideal.matmul_constant_zero_apply,
    ← Equiv.sum_comp (contrEquiv1 dot_S128x100_S100x128_S128x128_1_0_0_1_n_n 100 rfl rfl).symm]
  refine Finset.sum_congr rfl fun k _ => ?_
  have hk := contrEquiv1_symm_val dot_S128x100_S100x128_S128x128_1_0_0_1_n_n 100 rfl rfl k
  have el : dot_S128x100_S100x128_S128x128_1_0_0_1_n_n.lhsIdx (ix2 r d)
      ((contrEquiv1 dot_S128x100_S100x128_S128x128_1_0_0_1_n_n 100 rfl rfl).symm k) = ix2 r k := funext fun a => Fin.ext (by
    match a with
    | ⟨0, _⟩ => exact lhs_row _ _
    | ⟨1, _⟩ => exact (lhs_contr _ _).trans hk)
  have er : dot_S128x100_S100x128_S128x128_1_0_0_1_n_n.rhsIdx (ix2 r d)
      ((contrEquiv1 dot_S128x100_S100x128_S128x128_1_0_0_1_n_n 100 rfl rfl).symm k) = ix2 k d := funext fun a => Fin.ext (by
    match a with
    | ⟨0, _⟩ => exact (rhs_contr _ _).trans hk
    | ⟨1, _⟩ => exact rhs_col _ _)
  rw [el, er]

/-- The running class counts: what was there plus this tile's column sums of the one-hot block. -/
theorem pay2_apply (v9 : FVec Ideal S128x100 .f32) (v42 : Vec Ideal S1x100 .f32) (c : Fin 100) :
    k0_pay2 (F := Ideal) v9 v42 (ix2 (0 : Fin 1) c) = v42 (ix2 (0 : Fin 1) c) + ∑ r : Fin 128, v9 (ix2 r c) := by
  unfold k0_pay2
  show addf _ _ _ = _
  rw [addf_apply, shapeCast_self]
  refine congrArg (v42 (ix2 (0 : Fin 1) c) + ·) ?_
  refine (shapeCast_a_1a_apply _ _ 0 c).trans ?_
  exact sum_axis0 v9 _ _ _ c

/-- The running classification sum: what was there plus this tile's `∑_r ∑_c (o − onehot)²`. -/
theorem pay7_apply (v3 : Vec Ideal S128x1 .i32) (v10 : Vec Ideal S128x100 .f32) (v17 : Vec Ideal S1x1 .f32) :
    k0_pay7 (F := Ideal) v3 v10 v17 (ix2 (0 : Fin 1) (0 : Fin 1)) = v17 (ix2 (0 : Fin 1) (0 : Fin 1)) + tCls v10 v3 := by
  unfold k0_pay7
  show addf _ _ _ = _
  rw [addf_apply, shapeCast_self]
  refine congrArg (v17 (ix2 (0 : Fin 1) (0 : Fin 1)) + ·) ?_
  refine (shapeCast_a_1a_apply _ _ 0 0).trans ?_
  refine (sum_axis0 _ _ _ _ 0).trans ?_
  unfold tCls
  refine Finset.sum_congr rfl fun r _ => ?_
  refine (cast_col _ _ r 0).trans ?_
  refine (sum_axis1 _ _ _ _ r).trans ?_
  refine Finset.sum_congr rfl fun c _ => ?_
  rw [mulf_apply, subf_apply, pay6_apply]
  rfl

/-- This tile's class sums of the per-sample squared distances. -/
theorem pay8_apply (v3 : Vec Ideal S128x1 .i32) (v21 : Vec Ideal S128x100x128 .f32) (v26 : Vec Ideal S100x128 .f32) (c : Fin 100) :
    k0_pay8 (F := Ideal) v3 v21 v26 (ix2 (0 : Fin 1) c) = tSums v21 v26 v3 c := by
  unfold k0_pay8
  refine (shapeCast_a_1a_apply _ _ 0 c).trans ?_
  refine (sum_axis0 _ _ _ _ c).trans ?_
  unfold tSums
  refine Finset.sum_congr rfl fun r _ => ?_
  rw [mulf_apply, pay6_apply]
  refine congrArg (oh (v3 (ix2 r 0)) c * ·) ?_
  refine (bcast_col _ _ r c).trans ?_
  refine (cast_col _ _ r 0).trans ?_
  refine (sum_axis1 _ _ _ _ r).trans ?_
  unfold tPs
  refine Finset.sum_congr rfl fun d _ => ?_
  rw [mulf_apply, subf_apply]
  refine congrArg₂ (fun x y => (x - y) * (x - y)) ?_ ?_
  · refine (sum_mid _ _ _ _ r d).trans ?_
    refine Finset.sum_congr rfl fun c' _ => ?_
    rw [mulf_apply]
    refine congrArg (· * v21 (ix3 r c' d)) ?_
    refine (bcast_lane _ _ r c' d).trans ?_
    refine (cast_lane _ _ r c' 0).trans ?_
    exact pay6_apply v3 r c'
  · refine (matmul_zero_apply _ _ r d).trans ?_
    refine Finset.sum_congr rfl fun c' _ => ?_
    rw [pay6_apply]

end Cert.KPay

end
-- ==== Proof.KAccum.lean ====
/-
  The three accumulators after the whole grid, as sums over the batch.

  The grid visits the batch in 64 tiles of 128 rows. Each accumulator block (index map constant) stays in its staging
  buffer from point to point and is written back once, after the last point. So what it holds after point `n` is the
  sum of the contributions of tiles `0 … n` (induction on the point: the first point stores zero plus its tile, a later
  point what the point before left plus its tile), and the result arrays end at the sums over all 64 tiles — which are
  the sums over the batch, tile `t`'s row `r` being row `128 t + r`.
-/
import proofs.«400139_j39230231282168_2_alg».proof.Proof.Gen.KernelIdeal.Frame
import proofs.«400139_j39230231282168_2_alg».proof.Proof.KPieces
import proofs.«400139_j39230231282168_2_alg».proof.Proof.KPay
import proofs.«400139_j39230231282168_2_alg».proof.Proof.Spec
import Idealize.ShloMosaic.Lib.Pipeline.Value
import Idealize.ShloMosaic.Lib.StableHlo.Run
import Idealize.ShloMosaic.Lib.Tactic
import Idealize.ShloMosaic.Lib.ValueIdx

noncomputable section

open scoped BigOperators

namespace Cert.KAccum

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ)

/-- The four input blocks of a grid point, at their literal types. -/
abbrev zb (c : Dev nD) (t : Fin cfg0.N) : Vec Ideal S128x100x128 .f32 := iblk m c 0 t
abbrev ob (c : Dev nD) (t : Fin cfg0.N) : Vec Ideal S128x100 .f32 := iblk m c 1 t
abbrev yb (c : Dev nD) (t : Fin cfg0.N) : Vec Ideal S128x1 .i32 := iblk m c 2 t
abbrev wb (c : Dev nD) (t : Fin cfg0.N) : Vec Ideal S100x128 .f32 := iblk m c 3 t

/-- The accumulators' one row, entry by entry. -/
abbrev e00 : S1x1.Idx := ix2 (0 : Fin 1) (0 : Fin 1)
abbrev e0 (k : Fin 100) : S1x100.Idx := ix2 (0 : Fin 1) k

/-! ## One point -/

/-- The first point leaves its tile's contributions (on top of the zeros it stored). -/
theorem step_A (c : Dev nD) (t : Fin cfg0.N) (h0 : t.val % 64 = 0) :
    (outsAt0 m c t.val t.isLt).1 e00 = tCls (ob m c t) (yb m c t)
    ∧ (∀ k : Fin 100, (outsAt0 m c t.val t.isLt).2.1 (e0 k) = tSums (zb m c t) (wb m c t) (yb m c t) k)
    ∧ (∀ k : Fin 100, (outsAt0 m c t.val t.isLt).2.2 (e0 k) = tCounts (yb m c t) k) := by
  rw [outsAt0_A m c t h0]
  dsimp only
  refine ⟨?_, fun k => ?_, fun k => ?_⟩
  · refine (congrFun (KPieces.out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (zb m c t) (ob m c t) (yb m c t) (wb m c t)) e00).trans ?_
    refine (KPay.pay7_apply (yb m c t) (ob m c t) (k0_pay3 (F := Ideal))).trans ?_
    rw [KPay.pay3_apply, zero_add]
  · refine (congrFun (KPieces.out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (zb m c t) (ob m c t) (yb m c t) (wb m c t)) (e0 k)).trans ?_
    refine (KPay.pay1_apply (k0_pay8 (yb m c t) (zb m c t) (wb m c t)) (k0_pay4 (F := Ideal)) k).trans ?_
    rw [KPay.pay4_apply, zero_add]
    exact KPay.pay8_apply (yb m c t) (zb m c t) (wb m c t) k
  · refine (congrFun (KPieces.out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (zb m c t) (ob m c t) (yb m c t) (wb m c t)) (e0 k)).trans ?_
    refine (KPay.pay2_apply (k0_pay6 (yb m c t)) (k0_pay5 (F := Ideal)) k).trans ?_
    rw [KPay.pay5_apply, zero_add]
    exact Finset.sum_congr rfl fun r _ => KPay.pay6_apply (yb m c t) r k

/-- A later point leaves what the point before left plus its tile's contributions. -/
theorem step_B (c : Dev nD) (t : Fin cfg0.N) (h0 : ¬t.val % 64 = 0) :
    (outsAt0 m c t.val t.isLt).1 e00 = (outsAt0 m c (t.val - 1) (Nat.lt_of_le_of_lt (Nat.sub_le _ _) t.isLt)).1 e00 + tCls (ob m c t) (yb m c t)
    ∧ (∀ k : Fin 100, (outsAt0 m c t.val t.isLt).2.1 (e0 k)
        = (outsAt0 m c (t.val - 1) (Nat.lt_of_le_of_lt (Nat.sub_le _ _) t.isLt)).2.1 (e0 k) + tSums (zb m c t) (wb m c t) (yb m c t) k)
    ∧ (∀ k : Fin 100, (outsAt0 m c t.val t.isLt).2.2 (e0 k)
        = (outsAt0 m c (t.val - 1) (Nat.lt_of_le_of_lt (Nat.sub_le _ _) t.isLt)).2.2 (e0 k) + tCounts (yb m c t) k) := by
  rw [outsAt0_B m c t h0]
  dsimp only
  refine ⟨?_, fun k => ?_, fun k => ?_⟩
  · refine (congrFun (KPieces.out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (zb m c t) (ob m c t) (yb m c t) (wb m c t) _ _ _) e00).trans ?_
    exact KPay.pay7_apply (yb m c t) (ob m c t) _
  · refine (congrFun (KPieces.out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (zb m c t) (ob m c t) (yb m c t) (wb m c t) _ _ _) (e0 k)).trans ?_
    refine (KPay.pay1_apply (k0_pay8 (yb m c t) (zb m c t) (wb m c t)) _ k).trans ?_
    exact congrArg (_ + ·) (KPay.pay8_apply (yb m c t) (zb m c t) (wb m c t) k)
  · refine (congrFun (KPieces.out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (zb m c t) (ob m c t) (yb m c t) (wb m c t) _ _ _) (e0 k)).trans ?_
    refine (KPay.pay2_apply (k0_pay6 (yb m c t)) _ k).trans ?_
    exact congrArg (_ + ·) (Finset.sum_congr rfl fun r _ => KPay.pay6_apply (yb m c t) r k)

/-! ## All points up to `n` -/

/-- Tile `t`'s contributions, as functions of the point's number (zero past the grid). -/
def clsAt (c : Dev nD) (t : ℕ) : EReal := if h : t < cfg0.N then tCls (ob m c ⟨t, h⟩) (yb m c ⟨t, h⟩) else 0
def sumsAt (c : Dev nD) (k : Fin 100) (t : ℕ) : EReal :=
  if h : t < cfg0.N then tSums (zb m c ⟨t, h⟩) (wb m c ⟨t, h⟩) (yb m c ⟨t, h⟩) k else 0
def countsAt (c : Dev nD) (k : Fin 100) (t : ℕ) : EReal := if h : t < cfg0.N then tCounts (yb m c ⟨t, h⟩) k else 0

/-- After point `n` the accumulators hold the contributions of tiles `0 … n`. -/
theorem outs_eq (c : Dev nD) : ∀ (n : ℕ) (h : n < cfg0.N),
    (outsAt0 m c n h).1 e00 = ∑ t ∈ Finset.range (n + 1), clsAt m c t
    ∧ (∀ k : Fin 100, (outsAt0 m c n h).2.1 (e0 k) = ∑ t ∈ Finset.range (n + 1), sumsAt m c k t)
    ∧ (∀ k : Fin 100, (outsAt0 m c n h).2.2 (e0 k) = ∑ t ∈ Finset.range (n + 1), countsAt m c k t)
  | 0, h => by
    obtain ⟨h1, h2, h3⟩ := step_A m c ⟨0, h⟩ rfl
    refine ⟨?_, fun k => ?_, fun k => ?_⟩
    · rw [Finset.sum_range_one]; unfold clsAt; rw [dif_pos h]; exact h1
    · rw [Finset.sum_range_one]; unfold sumsAt; rw [dif_pos h]; exact h2 k
    · rw [Finset.sum_range_one]; unfold countsAt; rw [dif_pos h]; exact h3 k
  | n + 1, h => by
    have hN : cfg0.N = 64 := N_0
    have hB : ¬(⟨n + 1, h⟩ : Fin cfg0.N).val % 64 = 0 := by dsimp only; omega
    obtain ⟨h1, h2, h3⟩ := step_B m c ⟨n + 1, h⟩ hB
    obtain ⟨i1, i2, i3⟩ := outs_eq c n (Nat.lt_of_succ_lt h)
    refine ⟨?_, fun k => ?_, fun k => ?_⟩
    · rw [Finset.sum_range_succ, ← i1]; unfold clsAt; rw [dif_pos h]; exact h1
    · rw [Finset.sum_range_succ, ← i2 k]; unfold sumsAt; rw [dif_pos h]; exact h2 k
    · rw [Finset.sum_range_succ, ← i3 k]; unfold countsAt; rw [dif_pos h]; exact h3 k

end Cert.KAccum

end
-- ==== Proof.KBlocks.lean ====
/-
  The tiles' blocks are the arrays read at rows `128 t + r`, so the result arrays hold the batch sums.
-/
import proofs.«400139_j39230231282168_2_alg».proof.Proof.Gen.KernelIdeal.Frame
import proofs.«400139_j39230231282168_2_alg».proof.Proof.KAccum
import proofs.«400139_j39230231282168_2_alg».proof.Proof.Spec
import Idealize.ShloMosaic.Lib.Pipeline.Value
import Idealize.ShloMosaic.Lib.StableHlo.Run
import Idealize.ShloMosaic.Lib.Tactic
import Idealize.ShloMosaic.Lib.ValueIdx

noncomputable section

open scoped BigOperators

namespace Cert.KBlocks

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KAccum

variable (m : (ℓ : Loc nD τ sig) → Buf (Elt Ideal) ℓ)

/-- A grid point as a tile number, and back. -/
def tt (t : Fin cfg0.N) : Fin 64 := ⟨t.val, lt_of_lt_of_eq t.isLt (show cfg0.N = 64 from N_0)⟩
def ut (t : Fin 64) : Fin cfg0.N := ⟨t.val, by rw [show cfg0.N = 64 from N_0]; exact t.isLt⟩
theorem tt_ut (t : Fin 64) : tt (ut t) = t := rfl

/-- Where each input window's block sits at point `t`: tile `t` along the batch axis, the whole of every other axis. -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

/-- The label column the region reads is the label vector reshaped to one column. -/
theorem V_v0 (c : Dev nD) :
    (V m c main_v0 : S8192x1.Idx → BitVec 32) = shapeCast S8192x1 (m ((c : Thread nD τ).loc main_arg3)) shapeCasts_S8192_S8192x1 := by
  show StableHlo.after hostOps0 (fun b => m (c, b)) (Proc.devRef .tc main_v0) = _
  after_results
  rfl

/-- The activations' block at point `t`. -/
theorem zb_apply (c : Dev nD) (t : Fin cfg0.N) (r : Fin 128) (k : Fin 100) (d : Fin 128) :
    zb m c t (ix3 r k d) = m ((c : Thread nD τ).loc main_arg0) (ix3 (row (tt t) r) k d) := by
  unfold zb iblk
  rw [View.read_apply]
  show V m c main_arg0 _ = _
  rw [V_main_arg0 m c]
  congr 1
  funext a
  apply Fin.ext
  match a with
  | ⟨0, _⟩ => show win0_0.index t 0 * 128 + 1 * r.val = 128 * t.val + r.val; rw [(idx0 t).1]; omega
  | ⟨1, _⟩ => show win0_0.index t 1 * 100 + 1 * k.val = k.val; rw [(idx0 t).2.1]; omega
  | ⟨2, _⟩ => show win0_0.index t 2 * 128 + 1 * d.val = d.val; rw [(idx0 t).2.2]; omega

/-- The scores' block at point `t`. -/
theorem ob_apply (c : Dev nD) (t : Fin cfg0.N) (r : Fin 128) (k : Fin 100) :
    ob m c t (ix2 r k) = m ((c : Thread nD τ).loc main_arg2) (ix2 (row (tt t) r) k) := by
  unfold ob iblk
  rw [View.read_apply]
  show V m c main_arg2 _ = _
  rw [V_main_arg2 m c]
  congr 1
  funext a
  apply Fin.ext
  match a with
  | ⟨0, _⟩ => show win0_1.index t 0 * 128 + 1 * r.val = 128 * t.val + r.val; rw [(idx1 t).1]; omega
  | ⟨1, _⟩ => show win0_1.index t 1 * 100 + 1 * k.val = k.val; rw [(idx1 t).2]; omega

/-- The centres' block at every point is the whole table. -/
theorem wb_apply (c : Dev nD) (t : Fin cfg0.N) (k : Fin 100) (d : Fin 128) :
    wb m c t (ix2 k d) = m ((c : Thread nD τ).loc main_arg1) (ix2 k d) := by
  unfold wb iblk
  rw [View.read_apply]
  show V m c main_arg1 _ = _
  rw [V_main_arg1 m c]
  congr 1
  funext a
  apply Fin.ext
  match a with
  | ⟨0, _⟩ => show win0_3.index t 0 * 100 + 1 * k.val = k.val; rw [(idx3 t).1]; omega
  | ⟨1, _⟩ => show win0_3.index t 1 * 128 + 1 * d.val = d.val; rw [(idx3 t).2]; omega

/-- The labels' block at point `t`. -/
theorem yb_apply (c : Dev nD) (t : Fin cfg0.N) (r : Fin 128) :
    yb m c t (ix2 r (0 : Fin 1)) = m ((c : Thread nD τ).loc main_arg3) (ix1 (row (tt t) r)) := by
  unfold yb iblk
  rw [View.read_apply]
  show V m c main_v0 _ = _
  rw [V_v0 m c]
  refine shapeCast_apply _ _ _ (ix1 (row (tt t) r)) ?_
  rw [Shape.rowMajor_val_one, Shape.rowMajor_val_two]
  show 128 * t.val + r.val = (win0_2.index t 0 * 128 + 1 * r.val) * 1 + (win0_2.index t 1 * 1 + 1 * 0)
  rw [(idx2 t).1, (idx2 t).2]
  omega

end Cert.KBlocks

end
-- ==== Proof.KFinal.lean ====
/-
  The kernel's three result arrays after the region, as sums over the batch.

  Each result array is one block, written back once after the last grid point, so it ends at what the accumulator held
  then: the contributions of all 64 tiles. A tile's blocks are the arrays read at rows `128 t + r` (the label column is
  the label vector reshaped to one column), so the tile sums add up to the batch sums of the specification.
-/
import proofs.«400139_j39230231282168_2_alg».proof.Proof.Gen.KernelIdeal.Frame
import proofs.«400139_j39230231282168_2_alg».proof.Proof.KAccum
import proofs.«400139_j39230231282168_2_alg».proof.Proof.Spec
import Idealize.ShloMosaic.Lib.Pipeline.Value
import Idealize.ShloMosaic.Lib.StableHlo.Run
import Idealize.ShloMosaic.Lib.Tactic
import Idealize.ShloMosaic.Lib.ValueIdx

noncomputable section

open scoped BigOperators

namespace Cert.KFinal

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KAccum

variable (m : (ℓ : Loc nD τ sig) → Buf (Elt Ideal) ℓ)

theorem last_lt : 63 < cfg0.N := by rw [show cfg0.N = 64 from N_0]; decide
/-- The last grid point. -/
abbrev tLast : Fin cfg0.N := ⟨63, last_lt⟩

/-- What the accumulators hold after the last point, as contents of the result arrays (each array is its one block). -/
abbrev res4 (c : Dev nD) : Buf (Elt Ideal) ((c : Thread nD τ).loc main_v1_0) := (dats m 0 c).after 4 tLast
abbrev res5 (c : Dev nD) : Buf (Elt Ideal) ((c : Thread nD τ).loc main_v1_1) := (dats m 0 c).after 5 tLast
abbrev res6 (c : Dev nD) : Buf (Elt Ideal) ((c : Thread nD τ).loc main_v1_2) := (dats m 0 c).after 6 tLast

/-- Block (0, 0) of a one-block array, read through zero offsets, is the array. -/
theorem cut4 (c : Dev nD) (X : Buf (Elt Ideal) ((c : Thread nD τ).loc main_v1_0)) :
    (cfg0.win 4).cut (grid0.coords tLast) X = ((cfg0.win 4).blk tLast).view.read (Elt Ideal) X := by
  funext j
  show X _ = X (((cfg0.win 4).blk tLast).view.emb j)
  congr 1
  funext a
  apply Fin.ext
  match a with
  | ⟨0, _⟩ => show (j 0).val = win0_4.index tLast 0 * 1 + 1 * (j 0).val; rw [show win0_4.index tLast 0 = 0 from by decide +kernel]; omega
  | ⟨1, _⟩ => show (j 1).val = win0_4.index tLast 1 * 1 + 1 * (j 1).val; rw [show win0_4.index tLast 1 = 0 from by decide +kernel]; omega
/-- Block (0, 0) of a one-block array, read through zero offsets, is the array. -/
theorem cut5 (c : Dev nD) (X : Buf (Elt Ideal) ((c : Thread nD τ).loc main_v1_1)) :
    (cfg0.win 5).cut (grid0.coords tLast) X = ((cfg0.win 5).blk tLast).view.read (Elt Ideal) X := by
  funext j
  show X _ = X (((cfg0.win 5).blk tLast).view.emb j)
  congr 1
  funext a
  apply Fin.ext
  match a with
  | ⟨0, _⟩ => show (j 0).val = win0_5.index tLast 0 * 1 + 1 * (j 0).val; rw [show win0_5.index tLast 0 = 0 from by decide +kernel]; omega
  | ⟨1, _⟩ => show (j 1).val = win0_5.index tLast 1 * 100 + 1 * (j 1).val; rw [show win0_5.index tLast 1 = 0 from by decide +kernel]; omega
/-- Block (0, 0) of a one-block array, read through zero offsets, is the array. -/
theorem cut6 (c : Dev nD) (X : Buf (Elt Ideal) ((c : Thread nD τ).loc main_v1_2)) :
    (cfg0.win 6).cut (grid0.coords tLast) X = ((cfg0.win 6).blk tLast).view.read (Elt Ideal) X := by
  funext j
  show X _ = X (((cfg0.win 6).blk tLast).view.emb j)
  congr 1
  funext a
  apply Fin.ext
  match a with
  | ⟨0, _⟩ => show (j 0).val = win0_6.index tLast 0 * 1 + 1 * (j 0).val; rw [show win0_6.index tLast 0 = 0 from by decide +kernel]; omega
  | ⟨1, _⟩ => show (j 1).val = win0_6.index tLast 1 * 100 + 1 * (j 1).val; rw [show win0_6.index tLast 1 = 0 from by decide +kernel]; omega

/-- The one write-back of each accumulator, after the last point, writes it whole. -/
theorem flushed4 (c : Dev nD) (t : Fin cfg0.N) (hf : (cfg0.win 4).flush t = true) :
    (dats m 0 c).flushed 4 t = ((cfg0.win 4).blk t).view.read (Elt Ideal) (res4 m c) := by
  have hN : cfg0.N = 64 := N_0
  have h3 : t.val = 63 := by have := (flush0_4 t).mp hf; have := t.isLt; omega
  obtain rfl : t = tLast := Fin.ext h3
  exact cut4 c _
theorem flushed5 (c : Dev nD) (t : Fin cfg0.N) (hf : (cfg0.win 5).flush t = true) :
    (dats m 0 c).flushed 5 t = ((cfg0.win 5).blk t).view.read (Elt Ideal) (res5 m c) := by
  have hN : cfg0.N = 64 := N_0
  have h3 : t.val = 63 := by have := (flush0_5 t).mp hf; have := t.isLt; omega
  obtain rfl : t = tLast := Fin.ext h3
  exact cut5 c _
theorem flushed6 (c : Dev nD) (t : Fin cfg0.N) (hf : (cfg0.win 6).flush t = true) :
    (dats m 0 c).flushed 6 t = ((cfg0.win 6).blk t).view.read (Elt Ideal) (res6 m c) := by
  have hN : cfg0.N = 64 := N_0
  have h3 : t.val = 63 := by have := (flush0_6 t).mp hf; have := t.isLt; omega
  obtain rfl : t = tLast := Fin.ext h3
  exact cut6 c _

/-- So the result arrays end holding them. -/
theorem final4 (c : Dev nD) : (dats m 0 c).arrAt 4 cfg0.N = res4 m c :=
  (dats m 0 c).arrAt_eq_of_cover 4 (res4 m c) (flushed4 m c) fun i =>
    ⟨tLast, (flush0_4 tLast).mpr rfl, by
      show i ∈ ((View.whole main_v1_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩
theorem final5 (c : Dev nD) : (dats m 0 c).arrAt 5 cfg0.N = res5 m c :=
  (dats m 0 c).arrAt_eq_of_cover 5 (res5 m c) (flushed5 m c) fun i =>
    ⟨tLast, (flush0_5 tLast).mpr rfl, by
      show i ∈ ((View.whole main_v1_1).slice (win0_5.rect tLast)).set
      rw [View.set_slice_whole, Rect.mem_set_unit]
      intro a
      have h0 : (i 0 : Nat) < 1 := (i 0).isLt
      have h1 : (i 1 : Nat) < 100 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 100 from by decide +kernel]; omega⟩
theorem final6 (c : Dev nD) : (dats m 0 c).arrAt 6 cfg0.N = res6 m c :=
  (dats m 0 c).arrAt_eq_of_cover 6 (res6 m c) (flushed6 m c) fun i =>
    ⟨tLast, (flush0_6 tLast).mpr rfl, by
      show i ∈ ((View.whole main_v1_2).slice (win0_6.rect tLast)).set
      rw [View.set_slice_whole, Rect.mem_set_unit]
      intro a
      have h0 : (i 0 : Nat) < 1 := (i 0).isLt
      have h1 : (i 1 : Nat) < 100 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 100 from by decide +kernel]; omega⟩

end Cert.KFinal

end
-- ==== Proof.RefValue.lean ====
/-
  The reference's four results as functions of its arguments, read on the extended reals.

  `loss_cls` is the total of `(o − one_hot(y))²` over the batch divided by 819200; `loss_close` sums, over the 100 classes,
  the class's scatter-added per-sample squared distances divided by 128 times its scatter-added count. A sample's own
  activation row and centre are gathered at its label read by the gather (wrapped once when negative, then clamped);
  the scatter-adds read the label signed and drop a sample whose label is no class. So the class sums are
  `Spec.sumsRef` and the counts `Spec.countsRef`, which are `Spec.sums` and `Spec.counts`.
-/
import proofs.«400139_j39230231282168_2_alg».proof.Proof.Gen.ReferenceIdeal.Run
import proofs.«400139_j39230231282168_2_alg».proof.Proof.Gen.ReferenceIdeal.Read
import proofs.«400139_j39230231282168_2_alg».proof.Proof.LibRows
import proofs.«400139_j39230231282168_2_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.RefValue

open Idealize.ShloMosaic Idealize.ShloMosaic.ValueIdx Cert.ReferenceIdeal Cert.ReferenceIdeal.Read Cert.Spec

/-! ## Words -/

/-- A number below 2³¹, written as a 32-bit word and read signed, is itself. -/
theorem toInt_ofNat_of_lt (n : Nat) (h : n < 2147483648) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- The one-hot entry as the reference forms it: the comparison's bit read as a number. -/
theorem uitofp_cmpi_eq (v : BitVec 32) (c : Fin 100) :
    FloatOps.uitofp (F := Ideal) .f32 (IntOp.cmpi .eq v (BitVec.ofNat 32 c.val)) = oh v c := by
  unfold oh IntOp.cmpi
  by_cases h : v = BitVec.ofNat 32 c.val
  · rw [if_pos h]
    have hb : (v == BitVec.ofNat 32 c.val) = true := by simp [h]
    show (((BitVec.ofBool (v == BitVec.ofNat 32 c.val)).toNat : ℝ) : EReal) = 1
    rw [hb]
    simp
  · rw [if_neg h]
    have hb : (v == BitVec.ofNat 32 c.val) = false := by simp [h]
    show (((BitVec.ofBool (v == BitVec.ofNat 32 c.val)).toNat : ℝ) : EReal) = 0
    rw [hb]
    simp

/-! ## The classification loss -/

/-- One squared difference of the classification loss. -/
theorem v2_apply (o : (⟨S8192x100, .f32⟩ : BufTy).Contents (Elt Ideal)) (y : (⟨S8192, .i32⟩ : BufTy).Contents (Elt Ideal))
    (b : Fin 8192) (c : Fin 100) :
    val_main_v2 (F := Ideal) o y (ix2 b c) = sqr (o (ix2 b c) - oh (y (ix1 b)) c) := by
  have e1 : idx_main_call0_v0 (idx_main_call0_v2 (ix2 b c)) = ix1 b :=
    funext fun a => Fin.ext (by match a with | ⟨0, _⟩ => rfl)
  have e2 : BitVec.ofNat 32 (idx_main_call0_v3 (ix2 b c) 1).val = BitVec.ofNat 32 c.val := rfl
  rw [val_main_v2_apply, val_main_v1_apply, val_main_v0_apply, val_main_call0_v4_apply, val_main_call0_v2_apply,
    val_main_call0_v0_apply, val_main_call0_v3_apply, val_main_call0_v1_apply, e1, e2, uitofp_cmpi_eq]
  rfl

/-- The reference's `loss_cls`. -/
theorem v4_apply (o : (⟨S8192x100, .f32⟩ : BufTy).Contents (Elt Ideal)) (y : (⟨S8192, .i32⟩ : BufTy).Contents (Elt Ideal)) :
    val_main_v4 (F := Ideal) o y ix0 = Ideal.div (clsSum o y) (Ideal.ofBits .f32 0x49480000#32) := by
  rw [val_main_v4_apply, val_main_v3_apply, val_main_cst_0_apply, val_main_cst_apply]
  simp only [Ideal.hostDivf_def, Ideal.ofBits_def, Ideal.ofBits_zero_f32, zero_add]
  have hs : ∑ j : S8192x100.Idx, val_main_v2 (F := Ideal) o y j = clsSum o y := by
    rw [sum_idx2]
    unfold clsSum
    exact Finset.sum_congr rfl fun b _ => Finset.sum_congr rfl fun c _ => v2_apply o y b c
  rw [hs]

/-! ## The gather of a sample's own activation row: two start-index components -/

/-- The dimension numbers of a gather of rows `x[i, j, :]` of a rank-3 array at a two-column array of index words. -/
abbrev pairGatherDims (A B C R : Nat)
    (wf : GatherDims.WF ⟨3, ![A, B, C]⟩ ⟨2, ![R, 2]⟩ ⟨2, ![R, C]⟩ [1] [0, 1] [] [0, 1] [] 1 ![1, 1, C]) :
    GatherDims ⟨3, ![A, B, C]⟩ ⟨2, ![R, 2]⟩ ⟨2, ![R, C]⟩ where
  offsetDims := [1]
  collapsedSliceDims := [0, 1]
  operandBatchingDims := []
  startIndicesBatchingDims := []
  startIndexMap := [0, 1]
  indexVectorDim := 1
  sliceSizes := ![1, 1, C]
  wf := wf

/-- THE PAIR GATHER READ AT AN INDEX: entry `(r, j)` is the operand at the clamp of index word `(r, 0)`, the clamp of
    index word `(r, 1)`, and `j`. -/
theorem gather_pair_apply {A B C R : Nat} (hA : 0 < A) (hB : 0 < B)
    (wf : GatherDims.WF ⟨3, ![A, B, C]⟩ ⟨2, ![R, 2]⟩ ⟨2, ![R, C]⟩ [1] [0, 1] [] [0, 1] [] 1 ![1, 1, C])
    (x : (⟨3, ![A, B, C]⟩ : Shape).Idx → EReal) (idx : (⟨2, ![R, 2]⟩ : Shape).Idx → BitVec 32) (r : Fin R) (j : Fin C) :
    Host.gather (pairGatherDims A B C R wf) x idx (ix2 r j)
      = x (ix3 (Cert.LibRows.clampRow hA (idx (ix2 r 0))) (Cert.LibRows.clampRow hB (idx (ix2 r 1))) j) := by
  unfold Host.gather
  congr 1
  funext a
  refine Fin.ext ?_
  match a with
  | ⟨0, _⟩ =>
    show (pairGatherDims A B C R wf).start (ix2 r j) idx 0 + (pairGatherDims A B C R wf).batchCoord (ix2 r j) 0
      + (pairGatherDims A B C R wf).offCoord (ix2 r j) 0 = _
    rw [GatherDims.batchCoord_eq_zero _ _ _ List.not_mem_nil,
      GatherDims.offCoord_eq_zero _ _ _ (fun h => ((GatherDims.mem_sKept _ _).mp h).1
        (show (0 : Fin 3) ∈ [(0 : Fin 3), 1] by decide))]
    simp only [Nat.add_zero]
    unfold GatherDims.start
    rw [dif_pos (show (0 : Fin 3) ∈ (pairGatherDims A B C R wf).startIndexMap from (by decide : (0 : Fin 3) ∈ [(0 : Fin 3), 1]))]
    have hsi : (pairGatherDims A B C R wf).siIdx (ix2 r j) ⟨List.idxOf (0 : Fin 3) (pairGatherDims A B C R wf).startIndexMap,
        List.idxOf_lt_length_iff.2 (show (0 : Fin 3) ∈ [(0 : Fin 3), 1] by decide)⟩ = ix2 r 0 := by
      funext b; refine Fin.ext ?_
      match b with
      | ⟨0, _⟩ => rfl
      | ⟨1, _⟩ => rfl
    rw [hsi]
    rfl
  | ⟨1, _⟩ =>
    show (pairGatherDims A B C R wf).start (ix2 r j) idx 1 + (pairGatherDims A B C R wf).batchCoord (ix2 r j) 1
      + (pairGatherDims A B C R wf).offCoord (ix2 r j) 1 = _
    rw [GatherDims.batchCoord_eq_zero _ _ _ List.not_mem_nil,
      GatherDims.offCoord_eq_zero _ _ _ (fun h => ((GatherDims.mem_sKept _ _).mp h).1
        (show (1 : Fin 3) ∈ [(0 : Fin 3), 1] by decide))]
    simp only [Nat.add_zero]
    unfold GatherDims.start
    rw [dif_pos (show (1 : Fin 3) ∈ (pairGatherDims A B C R wf).startIndexMap from (by decide : (1 : Fin 3) ∈ [(0 : Fin 3), 1]))]
    have hsi : (pairGatherDims A B C R wf).siIdx (ix2 r j) ⟨List.idxOf (1 : Fin 3) (pairGatherDims A B C R wf).startIndexMap,
        List.idxOf_lt_length_iff.2 (show (1 : Fin 3) ∈ [(0 : Fin 3), 1] by decide)⟩ = ix2 r 1 := by
      funext b; refine Fin.ext ?_
      match b with
      | ⟨0, _⟩ => rfl
      | ⟨1, _⟩ => rfl
    rw [hsi]
    rfl
  | ⟨2, _⟩ =>
    show (pairGatherDims A B C R wf).start (ix2 r j) idx 2 + (pairGatherDims A B C R wf).batchCoord (ix2 r j) 2
      + (pairGatherDims A B C R wf).offCoord (ix2 r j) 2 = j.val
    rw [GatherDims.batchCoord_eq_zero _ _ _ List.not_mem_nil]
    have hs : (pairGatherDims A B C R wf).start (ix2 r j) idx 2 = 0 := by
      unfold GatherDims.start
      rw [dif_neg (show (2 : Fin 3) ∉ [(0 : Fin 3), 1] by decide)]
    have hk : (2 : Fin 3) ∈ (pairGatherDims A B C R wf).sKept :=
      (GatherDims.mem_sKept _ _).mpr ⟨(show (2 : Fin 3) ∉ [(0 : Fin 3), 1] by decide), List.not_mem_nil⟩
    have ho : (pairGatherDims A B C R wf).offCoord (ix2 r j) 2 = j.val := by
      unfold GatherDims.offCoord
      rw [dif_pos hk]
      rfl
    rw [hs, ho]
    simp only [Nat.add_zero, Nat.zero_add]

/-! ## The index columns -/

/-- The label column the gathers read: the label, wrapped once by 100 when negative. -/
theorem v24_apply (y : (⟨S8192, .i32⟩ : BufTy).Contents (Elt Ideal)) (e : Fin 8192) :
    val_main_v24 (F := Ideal) y (ix1 e) = Cert.LibRows.wrapN 100 (y (ix1 e)) := by
  rw [val_main_v24_apply, val_main_v21_apply, val_main_v20_apply, val_main_c_4_apply, val_main_v23_apply,
    val_main_v22_apply, val_main_c_5_apply]
  exact Cert.LibRows.wrap_word 100 (y (ix1 e))

/-- The same column, formed a second time for the activations' gather. -/
theorem v15_apply (y : (⟨S8192, .i32⟩ : BufTy).Contents (Elt Ideal)) (e : Fin 8192) :
    val_main_v15 (F := Ideal) y (ix1 e) = Cert.LibRows.wrapN 100 (y (ix1 e)) := by
  rw [val_main_v15_apply, val_main_v12_apply, val_main_v11_apply, val_main_c_2_apply, val_main_v14_apply,
    val_main_v13_apply, val_main_c_3_apply]
  exact Cert.LibRows.wrap_word 100 (y (ix1 e))

/-- The row counter, wrapped once by 8192 when negative. -/
theorem v10_apply (e : Fin 8192) :
    val_main_v10 (F := Ideal) (ix1 e) = Cert.LibRows.wrapN 8192 (BitVec.ofNat 32 e.val) := by
  rw [val_main_v10_apply, val_main_v7_apply, val_main_v6_apply, val_main_c_apply, val_main_v9_apply,
    val_main_v8_apply, val_main_c_1_apply, val_main_v5_apply]
  exact Cert.LibRows.wrap_word 8192 (BitVec.ofNat 32 e.val)

/-- Column 0 of the two-column index array is the row counter. -/
theorem v18_apply0 (y : (⟨S8192, .i32⟩ : BufTy).Contents (Elt Ideal)) (e : Fin 8192) :
    val_main_v18 (F := Ideal) y (ix2 e (0 : Fin 2)) = Cert.LibRows.wrapN 8192 (BitVec.ofNat 32 e.val) := by
  have e1 : idx_main_v16 (ix2 e (0 : Fin 1)) = ix1 e := funext fun a => Fin.ext (by match a with | ⟨0, _⟩ => rfl)
  unfold val_main_v18
  refine (concatenate_pair_apply_left (t := S8192x2) (s₁ := S8192x1) (s₂ := S8192x1) (1 : Fin 2) (val_main_v16 (F := Ideal))
    (val_main_v17 (F := Ideal) y) Cert.ReferenceIdeal.Gen.concatenates_S8192x1_S8192x1_S8192x2_d1 (ix2 e (0 : Fin 2)) rfl (ix2 e (0 : Fin 1))
    (fun b => by match b with | ⟨0, _⟩ => rfl | ⟨1, _⟩ => rfl)).trans ?_
  rw [val_main_v16_apply, e1, v10_apply]

/-- Column 1 of the two-column index array is the wrapped label. -/
theorem v18_apply1 (y : (⟨S8192, .i32⟩ : BufTy).Contents (Elt Ideal)) (e : Fin 8192) :
    val_main_v18 (F := Ideal) y (ix2 e (1 : Fin 2)) = Cert.LibRows.wrapN 100 (y (ix1 e)) := by
  have e1 : idx_main_v17 (ix2 e (0 : Fin 1)) = ix1 e := funext fun a => Fin.ext (by match a with | ⟨0, _⟩ => rfl)
  unfold val_main_v18
  refine (concatenate_pair_apply_right (t := S8192x2) (s₁ := S8192x1) (s₂ := S8192x1) (1 : Fin 2) (val_main_v16 (F := Ideal))
    (val_main_v17 (F := Ideal) y) Cert.ReferenceIdeal.Gen.concatenates_S8192x1_S8192x1_S8192x2_d1 (ix2 e (1 : Fin 2)) rfl rfl (ix2 e (0 : Fin 1))
    (fun b hb => by
      match b, hb with
      | ⟨0, _⟩, _ => rfl
      | ⟨1, _⟩, hb => exact absurd (Fin.ext rfl) hb) rfl).trans ?_
  rw [val_main_v17_apply, e1, v15_apply]

/-! ## The two gathers -/

/-- A sample's own activation row. -/
theorem v19_apply (z : (⟨S8192x100x128, .f32⟩ : BufTy).Contents (Elt Ideal)) (y : (⟨S8192, .i32⟩ : BufTy).Contents (Elt Ideal))
    (e : Fin 8192) (k : Fin 128) :
    val_main_v19 (F := Ideal) z y (ix2 e k) = z (ix3 e (kap (y (ix1 e))) k) := by
  have h0 := v18_apply0 y e
  have h1 := v18_apply1 y e
  unfold val_main_v19
  generalize val_main_v18 (F := Ideal) y = idx at h0 h1 ⊢
  refine (gather_pair_apply (A := 8192) (B := 100) (C := 128) (R := 8192) (by decide) (by decide)
    Cert.ReferenceIdeal.Gen.gather_S8192x100x128_S8192x2_S8192x128_1_01_n_n_01_1_11128_wf z idx e k).trans ?_
  rw [h0, h1, Cert.LibRows.clamp_wrap_of_toInt (by decide) (BitVec.ofNat 32 e.val) e
    (toInt_ofNat_of_lt e.val (by have := e.isLt; omega))]
  rfl

/-- A sample's own centre. -/
theorem v26_apply (w : (⟨S100x128, .f32⟩ : BufTy).Contents (Elt Ideal)) (y : (⟨S8192, .i32⟩ : BufTy).Contents (Elt Ideal))
    (e : Fin 8192) (k : Fin 128) :
    val_main_v26 (F := Ideal) w y (ix2 e k) = w (ix2 (kap (y (ix1 e))) k) := by
  have e1 : idx_main_v25 (ix2 e (0 : Fin 1)) = ix1 e := funext fun a => Fin.ext (by match a with | ⟨0, _⟩ => rfl)
  have h0 : val_main_v25 (F := Ideal) y (ix2 e (0 : Fin 1)) = Cert.LibRows.wrapN 100 (y (ix1 e)) := by
    rw [val_main_v25_apply, e1, v24_apply]
  unfold val_main_v26
  generalize val_main_v25 (F := Ideal) y = idx at h0 ⊢
  refine (Cert.LibRows.gather_rows_apply (N := 100) (C := 128) (R := 8192) (by decide)
    Cert.ReferenceIdeal.Gen.gather_S100x128_S8192x1_S8192x128_1_0_n_n_0_1_1128_wf w idx e k).trans ?_
  rw [h0]
  rfl

/-! ## The per-sample squared distance and the two scatter-adds -/

/-- The reference's per-sample squared distance. -/
theorem v29_apply (z : (⟨S8192x100x128, .f32⟩ : BufTy).Contents (Elt Ideal)) (w : (⟨S100x128, .f32⟩ : BufTy).Contents (Elt Ideal))
    (y : (⟨S8192, .i32⟩ : BufTy).Contents (Elt Ideal)) (e : Fin 8192) :
    val_main_v29 (F := Ideal) z w y (ix1 e) = psRef z w y e := by
  have e1 : ∀ k : Fin 128, idx_main_v29 (ix1 e) k = ix2 e k := fun k =>
    funext fun a => Fin.ext (by match a with | ⟨0, _⟩ => rfl | ⟨1, _⟩ => rfl)
  rw [val_main_v29_apply, val_main_cst_6_apply]
  simp only [Ideal.ofBits_def, Ideal.ofBits_zero_f32, zero_add]
  unfold psRef
  refine Finset.sum_congr rfl fun k _ => ?_
  rw [e1, val_main_v28_apply, val_main_v27_apply, v19_apply, v26_apply]
  rfl

/-- The class sums as the reference scatters them. -/
theorem v32_apply (z : (⟨S8192x100x128, .f32⟩ : BufTy).Contents (Elt Ideal)) (w : (⟨S100x128, .f32⟩ : BufTy).Contents (Elt Ideal))
    (y : (⟨S8192, .i32⟩ : BufTy).Contents (Elt Ideal)) (c : Fin 100) :
    val_main_v32 (F := Ideal) z w y (ix1 c) = sumsRef z w y c := by
  have e1 : ∀ e : Fin 8192, idx_main_v31 (ix2 e (0 : Fin 1)) = ix1 e := fun e =>
    funext fun a => Fin.ext (by match a with | ⟨0, _⟩ => rfl)
  have hu : ∀ e : Fin 8192, val_main_v29 (F := Ideal) z w y (ix1 e) = psRef z w y e := v29_apply z w y
  unfold val_main_v32
  generalize val_main_v29 (F := Ideal) z w y = u at hu ⊢
  refine (Cert.LibRows.scatterAdd_vec_apply (N := 100) (R := 8192)
    Cert.ReferenceIdeal.Gen.scatter_S100_S8192x1_S8192_n_0_0_1_wf (val_main_v30 (F := Ideal)) (val_main_v31 (F := Ideal) y) u c).trans ?_
  rw [val_main_v30_apply, val_main_cst_7_apply]
  simp only [Ideal.ofBits_def, Ideal.ofBits_zero_f32, zero_add]
  unfold sumsRef
  refine Finset.sum_congr rfl fun e _ => ?_
  rw [val_main_v31_apply, e1, hu]

/-- The class counts as the reference scatters them. -/
theorem v36_apply (y : (⟨S8192, .i32⟩ : BufTy).Contents (Elt Ideal)) (c : Fin 100) :
    val_main_v36 (F := Ideal) y (ix1 c) = countsRef y c := by
  have e1 : ∀ e : Fin 8192, idx_main_v35 (ix2 e (0 : Fin 1)) = ix1 e := fun e =>
    funext fun a => Fin.ext (by match a with | ⟨0, _⟩ => rfl)
  unfold val_main_v36
  refine (Cert.LibRows.scatterAdd_vec_apply (N := 100) (R := 8192)
    Cert.ReferenceIdeal.Gen.scatter_S100_S8192x1_S8192_n_0_0_1_wf (val_main_v34 (F := Ideal)) (val_main_v35 (F := Ideal) y)
    (val_main_v33 (F := Ideal)) c).trans ?_
  rw [val_main_v34_apply, val_main_cst_9_apply]
  simp only [Ideal.ofBits_def, Ideal.ofBits_zero_f32, zero_add]
  unfold countsRef
  refine Finset.sum_congr rfl fun e _ => ?_
  rw [val_main_v35_apply, e1, val_main_v33_apply, val_main_cst_8_apply]
  simp only [Ideal.ofBits_def, Ideal.ofBits_one_f32]

/-- The reference's `loss_close`. -/
theorem v40_apply (z : (⟨S8192x100x128, .f32⟩ : BufTy).Contents (Elt Ideal)) (w : (⟨S100x128, .f32⟩ : BufTy).Contents (Elt Ideal))
    (y : (⟨S8192, .i32⟩ : BufTy).Contents (Elt Ideal)) :
    val_main_v40 (F := Ideal) z w y ix0
      = ∑ c : Fin 100, Ideal.div (sums z w y c) (counts y c * Ideal.ofBits .f32 0x43000000#32) := by
  rw [val_main_v40_apply, val_main_cst_11_apply]
  simp only [Ideal.ofBits_def, Ideal.ofBits_zero_f32, zero_add]
  rw [Cert.LibRows.sum_idx1]
  refine Finset.sum_congr rfl fun c _ => ?_
  rw [val_main_v39_apply, val_main_v38_apply, val_main_v37_apply, val_main_cst_10_apply, v32_apply, v36_apply,
    ← sums_eq_ref, ← counts_eq_ref]
  rfl

end Cert.RefValue

end
-- ==== Proof.KRun.lean ====
/-
  The idealized kernel's run, read: its four results as functions of the arguments.

  The frame run names every array of the pipeline and every other buffer after the host operations that follow the
  region. The classification loss is the batch total of `(o − onehot)²` over 819200, the clustering loss the sum over
  the classes of the class sum over 128 times the class count, the separation term the reference's own function of
  the centres; each is the reference's stage of the same name, so the total is too.
-/
import proofs.«400139_j39230231282168_2_alg».proof.Proof.Gen.KernelIdeal.Frame
import proofs.«400139_j39230231282168_2_alg».proof.Proof.Gen.ReferenceIdeal.Read
import proofs.«400139_j39230231282168_2_alg».proof.Proof.KTail
import proofs.«400139_j39230231282168_2_alg».proof.Proof.KBlocks
import proofs.«400139_j39230231282168_2_alg».proof.Proof.KFinal
import proofs.«400139_j39230231282168_2_alg».proof.Proof.KAccum
import proofs.«400139_j39230231282168_2_alg».proof.Proof.RefValue
import proofs.«400139_j39230231282168_2_alg».proof.Proof.Spec
import Idealize.ShloMosaic.Lib.Pipeline.Value
import Idealize.ShloMosaic.Lib.ValueIdx
import Idealize.ShloMosaic.PureOps.Ideal.Laws

noncomputable section

open scoped BigOperators

namespace Cert.KRun

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KAccum Cert.KFinal Cert.KBlocks Cert.KTail

variable (m : (ℓ : Loc nD τ sig) → Buf (Elt Ideal) ℓ) (ρ : Dev nD → PrngReg)

/-- The tile numbers `0 … 63` are the grid points. -/
theorem sum_points (f : ℕ → EReal) (g : Fin 64 → EReal) (h : ∀ t : Fin 64, f t.val = g t) :
    ∑ t ∈ Finset.range (tLast.val + 1), f t = ∑ t : Fin 64, g t := by
  show ∑ t ∈ Finset.range 64, f t = _
  rw [Finset.sum_range]
  exact Finset.sum_congr rfl fun t _ => h t

/-- The classification total the region leaves. -/
theorem A4_eq (c : Dev nD) :
    A4 m c e00 = clsSum (m ((c : Thread nD τ).loc main_arg2)) (m ((c : Thread nD τ).loc main_arg3)) := by
  show (dats m 0 c).arrAt 4 cfg0.N e00 = _
  rw [final4 m c]
  show (dats m 0 c).after 4 tLast e00 = _
  rw [after0_4]
  refine ((outs_eq m c tLast.val tLast.isLt).1).trans ?_
  rw [sum_points (clsAt m c) (fun t => tCls (ob m c (ut t)) (yb m c (ut t))) (fun t => by
    unfold clsAt; exact dif_pos (ut t).isLt)]
  exact clsSum_tiles _ _ (fun t => ob m c (ut t)) (fun t => yb m c (ut t))
    (fun t r k => ob_apply m c (ut t) r k) (fun t r => yb_apply m c (ut t) r)

/-- The class sums the region leaves. -/
theorem A5_eq (c : Dev nD) (k : Fin 100) :
    A5 m c (e0 k) = sums (m ((c : Thread nD τ).loc main_arg0)) (m ((c : Thread nD τ).loc main_arg1)) (m ((c : Thread nD τ).loc main_arg3)) k := by
  show (dats m 0 c).arrAt 5 cfg0.N (e0 k) = _
  rw [final5 m c]
  show (dats m 0 c).after 5 tLast (e0 k) = _
  rw [after0_5]
  refine ((outs_eq m c tLast.val tLast.isLt).2.1 k).trans ?_
  rw [sum_points (sumsAt m c k) (fun t => tSums (zb m c (ut t)) (wb m c (ut t)) (yb m c (ut t)) k) (fun t => by
    unfold sumsAt; exact dif_pos (ut t).isLt)]
  exact sums_tiles _ _ _ (fun t => zb m c (ut t)) (fun t => wb m c (ut t)) (fun t => yb m c (ut t))
    (fun t r k d => zb_apply m c (ut t) r k d) (fun t k d => wb_apply m c (ut t) k d) (fun t r => yb_apply m c (ut t) r) k

/-- The class counts the region leaves. -/
theorem A6_eq (c : Dev nD) (k : Fin 100) :
    A6 m c (e0 k) = counts (m ((c : Thread nD τ).loc main_arg3)) k := by
  show (dats m 0 c).arrAt 6 cfg0.N (e0 k) = _
  rw [final6 m c]
  show (dats m 0 c).after 6 tLast (e0 k) = _
  rw [after0_6]
  refine ((outs_eq m c tLast.val tLast.isLt).2.2 k).trans ?_
  rw [sum_points (countsAt m c k) (fun t => tCounts (yb m c (ut t)) k) (fun t => by
    unfold countsAt; exact dif_pos (ut t).isLt)]
  exact counts_tiles _ (fun t => yb m c (ut t)) (fun t r => yb_apply m c (ut t) r) k

/-- The classification loss is the reference's. -/
theorem kCls_eq (c : Dev nD) :
    Host.divf (shapeCast S_ (A4 m c) shapeCasts_S1x1_S_) (constant (F := Ideal) S_ .f32 0x49480000#32)
      = Cert.ReferenceIdeal.Read.val_main_v4 (F := Ideal) (m ((c : Thread nD τ).loc main_arg2)) (m ((c : Thread nD τ).loc main_arg3)) := by
  funext i
  obtain rfl : i = ix0 := eq_ix0 i
  rw [Cert.RefValue.v4_apply]
  show Ideal.div (shapeCast S_ (A4 m c) shapeCasts_S1x1_S_ ix0) (Ideal.ofBits .f32 0x49480000#32) = _
  rw [shapeCast_apply (A4 m c) shapeCasts_S1x1_S_ ix0 e00 (by decide), A4_eq]

/-- The clustering loss is the reference's. -/
theorem kClose_eq (c : Dev nD) :
    Host.reduceAdd (Host.divf (A5 m c) (mulf (A6 m c) (broadcastInDim S1x100 ![] bcast_S_S1x100 (constant (F := Ideal) S_ .f32 0x43000000#32))))
        (constant (F := Ideal) S_ .f32 0x00000000#32) reducesTo_S1x100_S_d0_1 h_S_
      = Cert.ReferenceIdeal.Read.val_main_v40 (F := Ideal) (m ((c : Thread nD τ).loc main_arg0)) (m ((c : Thread nD τ).loc main_arg1)) (m ((c : Thread nD τ).loc main_arg3)) := by
  funext i
  obtain rfl : i = ix0 := eq_ix0 i
  rw [Cert.RefValue.v40_apply]
  generalize hy0 : Host.divf (A5 m c) (mulf (A6 m c) (broadcastInDim S1x100 ![] bcast_S_S1x100 (constant (F := Ideal) S_ .f32 0x43000000#32))) = y0
  simp only [Host.reduceAdd, Ideal.hostReduceAdd_def]
  rw [Ideal.hostReduceAdd_total reducesTo_S1x100_S_d0_1 (fun b => b.elim0) y0 _ ix0, sum_idx2, Fin.sum_univ_one]
  show Ideal.ofBits .f32 0x00000000#32 + _ = _
  rw [Ideal.ofBits_zero_f32, zero_add]
  refine Finset.sum_congr rfl fun k _ => ?_
  subst hy0
  show Ideal.div (A5 m c (e0 k)) (A6 m c (e0 k) * Ideal.ofBits .f32 0x43000000#32) = _
  rw [A5_eq, A6_eq]

/-- THE RUN, READ: every weakly fair execution of the idealized kernel's program terminates with its four results at
    the reference's stages of the arguments, and the arguments unchanged. -/
theorem run : θ_run defs (onTc (τ := τ) (main (F := Ideal))) ⟨m, fun _ => 0, ρ⟩ fun r => ∀ c : Dev nD,
      r.2.mem ((c : Thread nD τ).loc main_v25) = Cert.ReferenceIdeal.Read.val_main_v58 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v3) = Cert.ReferenceIdeal.Read.val_main_v4 (F := Ideal) (m ((c : Thread nD τ).loc main_arg2)) (m ((c : Thread nD τ).loc main_arg3))
      ∧ r.2.mem ((c : Thread nD τ).loc main_v7) = Cert.ReferenceIdeal.Read.val_main_v40 (F := Ideal) (m ((c : Thread nD τ).loc main_arg0)) (m ((c : Thread nD τ).loc main_arg1)) (m ((c : Thread nD τ).loc main_arg3))
      ∧ r.2.mem ((c : Thread nD τ).loc main_v23) = Cert.ReferenceIdeal.Read.val_main_v56 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v25 mem_v25).trans ((tail_v25 m c).trans (by
        rw [kCls_eq m c, kClose_eq m c, A3_eq m c]; rfl)),
      ((h c).2 main_v3 mem_v3).trans ((tail_v3 m c).trans (kCls_eq m c)),
      ((h c).2 main_v7 mem_v7).trans ((tail_v7 m c).trans (kClose_eq m c)),
      ((h c).2 main_v23 mem_v23).trans ((tail_v23 m c).trans (by rw [A3_eq m c])),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KRun

end
-- ==== Proof.lean ====
/-
  The certificate of a classification-and-clustering loss kernel against its jnp reference, over the extended reals.

  Inputs: activations `z : [8192, 100, 128]`, class centres `w : [100, 128]`, scores `o : [8192, 100]`, labels
  `y : [8192]` (any 32-bit words). Both programs return `(total, loss_cls, loss_close, loss_dist)`:
    loss_cls   = ∑_{b,c} (o[b,c] − onehot(y_b)[c])² / 819200,
    loss_close = ∑_c sums[c] / (counts[c] · 128), with sums[c] the per-sample squared distances ‖z[b, y_b, :] − w[y_b, :]‖²
                 summed over the samples of class c and counts[c] their number,
    loss_dist  = a function of the centres alone (the same host operations in both programs),
    total      = loss_cls + loss_close + loss_dist.
  The kernel walks the batch in 64 tiles of 128 rows and accumulates three blocks across the grid: the classification
  total, the class sums and the class counts, selecting each sample's own row and centre by a one-hot weighted sum and a
  one-hot matrix product. The reference gathers rows at the label and scatter-adds per class. On the extended reals
  `0 · x = 0` and `1 · x = x` without any finiteness, so the one-hot selections are the gathers for a label that is a class,
  and a label that is no class contributes nothing on either side (an all-zero one-hot row; a dropped scatter update):
  the claim holds for every label word and the precondition is not used.
  The three frames are the generated frame certificates and the reference's generated run; `preserves` is trivial (the
  ideal pass rewrote nothing); `algebraic` states both runs at the reference's stages of the arguments.
-/
import proofs.«400139_j39230231282168_2_alg».proof.Defs
import proofs.«400139_j39230231282168_2_alg».proof.Proof.Gen.Kernel
import proofs.«400139_j39230231282168_2_alg».proof.Proof.Gen.Kernel.Frame
import proofs.«400139_j39230231282168_2_alg».proof.Proof.Gen.KernelIdeal
import proofs.«400139_j39230231282168_2_alg».proof.Proof.Gen.KernelIdeal.Frame
import proofs.«400139_j39230231282168_2_alg».proof.Proof.Gen.ReferenceIdeal
import proofs.«400139_j39230231282168_2_alg».proof.Proof.Gen.ReferenceIdeal.Run
import proofs.«400139_j39230231282168_2_alg».proof.Proof.Gen.ReferenceIdeal.Read
import proofs.«400139_j39230231282168_2_alg».proof.Proof.Gen.Pre_finite_inputs
import proofs.«400139_j39230231282168_2_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.2.2.1, (h c).2.2.2.2.2.1, (h c).2.2.2.2.2.2.1, (h c).2.2.2.2.2.2.2⟩)
    (Cert.ReferenceIdeal.Value.run (F := Ideal) m ρ)

/-- Both runs end with each result at the reference's stage of that name of the arguments, which agree. -/
theorem algebraic : Cert.algebraic_KernelIdeal_ReferenceIdeal := by
  intro m ρ m' ρ' _ hagree
  refine ⟨_, _, _, _, Cert.KRun.run m ρ, ?_⟩
  refine (θ_run Cert.ReferenceIdeal.defs _ _).mono (fun _ h c => ?_) (Cert.ReferenceIdeal.Value.run (F := Ideal) m' ρ')
  obtain ⟨h0, h1, h2, h3, ha⟩ := h c
  obtain ⟨e0, e1, e2, e3⟩ := hagree c
  refine ⟨h0.trans ?_, h1.trans ?_, h2.trans ?_, h3.trans ?_, ha⟩
  · rw [Cert.ReferenceIdeal.Read.val_main_v58_eq, e0, e1, e2, e3]
  · rw [Cert.ReferenceIdeal.Read.val_main_v4_eq, e2, e3]
  · rw [Cert.ReferenceIdeal.Read.val_main_v40_eq, e0, e1, e3]
  · rw [Cert.ReferenceIdeal.Read.val_main_v56_eq, e1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
